-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S100000 : Shape := ⟨1, ![100000]⟩
abbrev S1 : Shape := ⟨1, ![1]⟩
abbrev S256x128 : Shape := ⟨2, ![256, 128]⟩
abbrev S256 : Shape := ⟨1, ![256]⟩
abbrev S128x256 : Shape := ⟨2, ![128, 256]⟩
abbrev S128 : Shape := ⟨1, ![128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S100000 : S_.BroadcastsInDim S100000 (![] : Fin 0 → Fin S100000.rank)
  reducesTo_S100000_S_d0 : S100000.ReducesTo [0] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x256 .f32) (main_arg8 : FVec F S128 .f32) (main_arg9 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x128 .f32) (main_arg5 : FVec F S256 .f32) (main_arg6 : FVec F S256 .f32) (main_arg7 : FVec F S128x256 .f32) (main_arg8 : FVec F S128 .f32) (main_arg9 : FVec F S128 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S600000x128 .f32) (main_arg2 : FVec F S100000 .f32) (main_arg3 : FVec F S1 .f32) (main_arg4 : FVec F S256x128 .f32) (main_arg5 : FVec F S256 .f32) (main_arg6 : FVec F S256 .f32) (main_arg7 : FVec F S128x256 .f32) (main_arg8 : FVec F S128 .f32) (main_arg9 : FVec F S128 .f32) (main_arg10 : IVec S600000 32) (main_arg11 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S600000x128 : Shape := ⟨2, ![600000, 128]⟩
abbrev S100000 : Shape := ⟨1, ![100000]⟩
abbrev S1 : Shape := ⟨1, ![1]⟩
abbrev S256x128 : Shape := ⟨2, ![256, 128]⟩
abbrev S256 : Shape := ⟨1, ![256]⟩
abbrev S128x256 : Shape := ⟨2, ![128, 256]⟩
abbrev S128 : Shape := ⟨1, ![128]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S1x1 : Shape := ⟨2, ![1, 1]⟩
abbrev S1x256 : Shape := ⟨2, ![1, 256]⟩
abbrev S1x128 : Shape := ⟨2, ![1, 128]⟩
abbrev S100000x256 : Shape := ⟨2, ![100000, 256]⟩
abbrev S5000x128 : Shape := ⟨2, ![5000, 128]⟩
abbrev S5000x256 : Shape := ⟨2, ![5000, 256]⟩

abbrev nBuf : Space → Nat
  | .hbm => 86
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S100000, .f32⟩
  | .hbm, ⟨3, _⟩ => ⟨S1, .f32⟩
  | .hbm, ⟨4, _⟩ => ⟨S256x128, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S100000x1, .f32⟩
  | .hbm, ⟨45, _⟩ => ⟨S1x1, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S128x256, .f32⟩
  | .hbm, ⟨52, _⟩ => ⟨S256x128, .f32⟩
  | .hbm, ⟨53, _⟩ => ⟨S1x256, .f32⟩
  | .hbm, ⟨54, _⟩ => ⟨S1x256, .f32⟩
  | .hbm, ⟨55, _⟩ => ⟨S1x128, .f32⟩
  | .hbm, ⟨56, _⟩ => ⟨S1x128, .f32⟩
  | .hbm, ⟨57, _⟩ => ⟨S100000x256, .f32⟩
  | .hbm, ⟨58, _⟩ => ⟨S1x256, .f32⟩
  | .hbm, ⟨59, _⟩ => ⟨S1x256, .f32⟩
  | .hbm, ⟨60, _⟩ => ⟨S_, .f32⟩
  | .hbm, ⟨61, _⟩ => ⟨S1x256, .f32⟩
  | .hbm, ⟨62, _⟩ => ⟨S1x256, .f32⟩
  | .hbm, ⟨63, _⟩ => ⟨S_, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S_, .f32⟩
  | .hbm, ⟨69, _⟩ => ⟨S1x256, .f32⟩
  | .hbm, ⟨70, _⟩ => ⟨S1x256, .f32⟩
  | .hbm, ⟨71, _⟩ => ⟨S100000x128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S_, .f32⟩
  | .hbm, ⟨83, _⟩ => ⟨S1x128, .f32⟩
  | .hbm, ⟨84, _⟩ => ⟨S1x128, .f32⟩
  | .hbm, ⟨85, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S1x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_v38_2 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47_0 : Ref sig .tc := ⟨.hbm, 71, rfl⟩
abbrev main_v47_1 : Ref sig .tc := ⟨.hbm, 72, rfl⟩
abbrev main_v47_2 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg8_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S1 : S_.BroadcastsInDim S1 (![] : Fin 0 → Fin S1.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  transposes_S128x256_S256x128_1_0 : S128x256.Transposes [1, 0] S256x128
  shapeCasts_S256_S1x256 : S256.ShapeCasts S1x256
  shapeCasts_S128_S1x128 : S128.ShapeCasts S1x128
  inb_S1x256_S1x256_0_0 : ∀ a, (![0, 0] : Fin 2 → Nat) a + S1x256.size a ≤ S1x256.size a
  h_S1x256 : 0 < S1x256.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  shapeCasts_S1x256_S1x256 : S1x256.ShapeCasts S1x256
  reduces_S5000x256_S256 : S5000x256.Reduces [0] S256
  bcast_S_S1x256 : S_.BroadcastsInDim S1x256 (![] : Fin 0 → Fin S1x256.rank)
  inb_S1x128_S1x128_0_0 : ∀ a, (![0, 0] : Fin 2 → Nat) a + S1x128.size a ≤ S1x128.size a
  h_S1x128 : 0 < S1x128.numel
  shapeCasts_S5000x256_S5000x256 : S5000x256.ShapeCasts S5000x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S1x128_S1x128 : S1x128.ShapeCasts S1x128
  reduces_S5000x128_S128 : S5000x128.Reduces [0] S128
  bcast_S_S1x128 : S_.BroadcastsInDim S1x128 (![] : Fin 0 → Fin S1x128.rank)
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v31) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38_0) S5000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38_1) S1x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38_2) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v38_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v47_1) S1x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47_2) S1x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v47_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S100000 : Shape := ⟨1, ![100000]⟩
abbrev S1 : Shape := ⟨1, ![1]⟩
abbrev S256x128 : Shape := ⟨2, ![256, 128]⟩
abbrev S256 : Shape := ⟨1, ![256]⟩
abbrev S128x256 : Shape := ⟨2, ![128, 256]⟩
abbrev S128 : Shape := ⟨1, ![128]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S1x1 : Shape := ⟨2, ![1, 1]⟩
abbrev S100000x256 : Shape := ⟨2, ![100000, 256]⟩
abbrev S1x256 : Shape := ⟨2, ![1, 256]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S100000, .f32⟩
  | .hbm, ⟨3, _⟩ => ⟨S1, .f32⟩
  | .hbm, ⟨4, _⟩ => ⟨S256x128, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S100000x1, .f32⟩
  | .hbm, ⟨45, _⟩ => ⟨S1x1, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x256, .f32⟩
  | .hbm, ⟨52, _⟩ => ⟨S_, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S1x256, .f32⟩
  | .hbm, ⟨58, _⟩ => ⟨S100000x256, .f32⟩
  | .hbm, ⟨59, _⟩ => ⟨S100000x256, .f32⟩
  | .hbm, ⟨60, _⟩ => ⟨S100000x256, .f32⟩
  | .hbm, ⟨61, _⟩ => ⟨S_, .f32⟩
  | .hbm, ⟨62, _⟩ => ⟨S256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S1x256, .f32⟩
  | .hbm, ⟨67, _⟩ => ⟨S100000x256, .f32⟩
  | .hbm, ⟨68, _⟩ => ⟨S100000x256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S1x256, .f32⟩
  | .hbm, ⟨74, _⟩ => ⟨S100000x256, .f32⟩
  | .hbm, ⟨75, _⟩ => ⟨S100000x256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S1x256, .f32⟩
  | .hbm, ⟨80, _⟩ => ⟨S100000x256, .f32⟩
  | .hbm, ⟨81, _⟩ => ⟨S100000x256, .f32⟩
  | .hbm, ⟨82, _⟩ => ⟨S_, .f32⟩
  | .hbm, ⟨83, _⟩ => ⟨S100000x256, .f32⟩
  | .hbm, ⟨84, _⟩ => ⟨S100000x256, .f32⟩
  | .hbm, ⟨85, _⟩ => ⟨S100000x128, .f32⟩
  | .hbm, ⟨86, _⟩ => ⟨S_, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x128, .f32⟩
  | .hbm, ⟨118, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call0_cst : Ref sig .tc := ⟨.hbm, 82, rfl⟩
abbrev main_call0_v0 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_call1_cst : Ref sig .tc := ⟨.hbm, 116, rfl⟩
abbrev main_call1_v0 : Ref sig .tc := ⟨.hbm, 117, rfl⟩
abbrev main_v85 : Ref sig .tc := ⟨.hbm, 118, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S1 : S_.BroadcastsInDim S1 (![] : Fin 0 → Fin S1.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S100000x1_S100000x128_0_1 : S100000x1.BroadcastsInDim S100000x128 (![0, 1] : Fin 2 → Fin S100000x128.rank)
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  reducesTo_S100000x128_S128_d0 : S100000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S256x128_S100000x256_1_1_0_0_n_n_wf : DotDims.WF S100000x128 S256x128 S100000x256 [1] [1] [0] [0] [] []
  dot_S100000x256_S128x256_S100000x128_1_1_0_0_n_n_wf : DotDims.WF S100000x256 S128x256 S100000x128 [1] [1] [0] [0] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S256x128_S100000x256_1_1_0_0_n_n : DotDims S100000x128 S256x128 S100000x256 where
  lhsContracting := [1]
  rhsContracting := [1]
  lhsNonContracting := [0]
  rhsNonContracting := [0]
  lhsBatch := []
  rhsBatch := []
  wf := dot_S100000x128_S256x128_S100000x256_1_1_0_0_n_n_wf
def dot_S100000x256_S128x256_S100000x128_1_1_0_0_n_n : DotDims S100000x256 S128x256 S100000x128 where
  lhsContracting := [1]
  rhsContracting := [1]
  lhsNonContracting := [0]
  rhsNonContracting := [0]
  lhsBatch := []
  rhsBatch := []
  wf := dot_S100000x256_S128x256_S100000x128_1_1_0_0_n_n_wf

class Facts : Prop extends Facts₀ where

variable [Facts]
-- ==== Proof.Spec.lean ====
/-
  The layer's mathematics, as pure functions of arrays of extended reals (no program is imported here).

  A matrix `y` of `n` rows is normalised column by column: a column's mean is its sum over the rows divided by the
  row count, and its variance is computed in one of two ways —
    * `varOnePass`: the mean of the squares minus the square of the mean, clamped at zero from below;
    * `varTwoPass`: the mean of the squared deviations from the mean.
  For a column of real numbers the two agree (the first is the second expanded, and the second is nonnegative); at an
  infinite entry they need not. `bnRelu` is the affine normalisation followed by the positive part, and `layer` is
  the two-stage network  x ↦ bnRelu (bnRelu (x · W₁ᵀ) · W₂ᵀ)  with the variance function left as a parameter.
-/
import Idealize.ShloMosaic.PureOps.Ideal
import Idealize.ShloMosaic.Lib.ValueIdx

noncomputable section

namespace Cert.Layer

open Idealize.ShloMosaic Idealize.ShloMosaic.ValueIdx

/-- A rank-2 array of extended reals. -/
abbrev Arr2 (n m : Nat) : Type := (⟨2, ![n, m]⟩ : Shape).Idx → EReal
/-- A rank-1 array of extended reals. -/
abbrev Arr1 (m : Nat) : Type := (⟨1, ![m]⟩ : Shape).Idx → EReal

/-- Every entry is a real number. -/
def Finite {ι : Type} (x : ι → EReal) : Prop := ∀ i, ∃ r : ℝ, x i = (r : EReal)

/-- The row count 100000, as the float both programs divide by. -/
def rowCount : EReal := Ideal.ofBits .f32 0x47C35000#32
/-- The variance offset 9.99999974E-6, as the float both programs add. -/
def varOffset : EReal := Ideal.ofBits .f32 0x3727C5AC#32

/-- `x · wᵀ`: entry (r, j) is the sum over q of x(r, q) · w(j, q). -/
def mulT {n k m : Nat} (x : Arr2 n k) (w : Arr2 m k) : Arr2 n m :=
  fun i => ∑ q : Fin k, x (ix2 (i 0) q) * w (ix2 (i 1) q)

/-- `x · w`: entry (r, j) is the sum over q of x(r, q) · w(q, j). -/
def mul {n k m : Nat} (x : Arr2 n k) (w : Arr2 k m) : Arr2 n m :=
  fun i => ∑ q : Fin k, x (ix2 (i 0) q) * w (ix2 q (i 1))

/-- The transpose. -/
def transpose {n m : Nat} (w : Arr2 n m) : Arr2 m n := fun i => w (ix2 (i 1) (i 0))

/-- A column's sum over all rows. -/
def colSum {n m : Nat} (y : Arr2 n m) (j : Fin m) : EReal := ∑ r : Fin n, y (ix2 r j)
/-- A column's sum of squares over all rows. -/
def colSumSq {n m : Nat} (y : Arr2 n m) (j : Fin m) : EReal := ∑ r : Fin n, y (ix2 r j) * y (ix2 r j)

/-- A column's mean: its sum divided by the row count. -/
def colMean {n m : Nat} (y : Arr2 n m) (j : Fin m) : EReal := Ideal.div (colSum y j) rowCount

/-- Mean of squares minus squared mean, clamped at zero. -/
def varOnePass {n m : Nat} (y : Arr2 n m) (j : Fin m) : EReal :=
  max (Ideal.div (colSumSq y j) rowCount - colMean y j * colMean y j) 0

/-- Mean of the squared deviations. -/
def varTwoPass {n m : Nat} (y : Arr2 n m) (j : Fin m) : EReal :=
  Ideal.div (∑ r : Fin n, (y (ix2 r j) - colMean y j) * (y (ix2 r j) - colMean y j)) rowCount

/-- Normalise each column by a given mean and variance, scale by `g`, shift by `b`, take the positive part. -/
def bnRelu {n m : Nat} (y : Arr2 n m) (mu var g b : Fin m → EReal) : Arr2 n m :=
  fun i => max ((y i - mu (i 1)) * Ideal.rsqrt (var (i 1) + varOffset) * g (i 1) + b (i 1)) 0

/-- One stage: multiply by `wᵀ`, then normalise with the variance function `var`. -/
def stage {n k m : Nat} (var : Arr2 n m → Fin m → EReal) (x : Arr2 n k) (w : Arr2 m k) (g b : Fin m → EReal) : Arr2 n m :=
  bnRelu (mulT x w) (colMean (mulT x w)) (var (mulT x w)) g b

/-- The two-stage network over a variance function. -/
def layer {n d h : Nat} (var1 : Arr2 n h → Fin h → EReal) (var2 : Arr2 n d → Fin d → EReal)
    (x : Arr2 n d) (w1 : Arr2 h d) (g1 b1 : Fin h → EReal) (w2 : Arr2 d h) (g2 b2 : Fin d → EReal) : Arr2 n d :=
  stage var2 (stage var1 x w1 g1 b1) w2 g2 b2

end Cert.Layer

end
-- ==== Proof.ChainHost.lean ====
/-
  What the host operations between the regions leave in the buffers the regions read, as arrays of extended reals:
  the column means are the accumulated sums divided by the row count; the variances are the accumulated sums of squares
  divided by the row count, minus the squared means, clamped at zero; the scale and shift rows are the rank-1 inputs
  re-laid as one row; the weights are the transposed inputs.
-/
import proofs.«143247_j50869592655513_1_alg».proof.Proof.Gen.KernelIdeal.Frame
import proofs.«143247_j50869592655513_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- A rank-1 array read as a function of its one coordinate. -/
abbrev vec {n : Nat} (x : Layer.Arr1 n) : Fin n → EReal := fun j => x (ix1 j)
/-- A one-row array read as a function of the column. -/
abbrev row1 {k : Nat} (x : Layer.Arr2 1 k) : Fin k → EReal := fun j => x (ix2 0 j)

/-- The mean row from a sum row: entry by entry the sum divided by the row count. -/
def meanOf {k : Nat} (s : Layer.Arr2 1 k) : Fin k → EReal := fun j => Ideal.div (s (ix2 0 j)) Layer.rowCount
/-- The variance row from a sum row and a sum-of-squares row. -/
def varOf {k : Nat} (s q : Layer.Arr2 1 k) : Fin k → EReal :=
  fun j => max (Ideal.div (q (ix2 0 j)) Layer.rowCount - meanOf s j * meanOf s j) 0

/-! ## Before region 0: the first weights are the fifth input transposed -/

theorem w1_eq (c : Dev nD) : (V1 m ρ c main_v32 : Layer.Arr2 128 256) = Layer.transpose (m ((c : Thread nD τ).loc main_arg4)) := by
  show StableHlo.after hostOps0 (W0 m ρ c) (Proc.devRef .tc main_v32) = _
  after_results
  funext i
  obtain ⟨p, q, rfl⟩ : ∃ (p : Fin 128) (q : Fin 256), i = ix2 p q := ⟨i 0, i 1, eq_ix2 i⟩
  exact transpose_ix2_apply _ _ p q

/-! ## Between regions 0 and 1 -/

theorem y1_eq (c : Dev nD) : V3 m ρ c main_v38_0 = (dat0 (V1 m ρ) c).arrAt 2 cfg0.N := by
  show StableHlo.after hostOps1 (W2 m ρ c) (Proc.devRef .tc main_v38_0) = _
  after_results
  exact W2_arr m ρ c 2

theorem mean1_eq (c : Dev nD) : row1 (V3 m ρ c main_v40) = meanOf ((dat0 (V1 m ρ) c).arrAt 3 cfg0.N : Layer.Arr2 1 256) := by
  have e : V3 m ρ c main_v40
      = Host.divf (W2 m ρ c (Proc.devRef .tc main_v38_1)) (broadcastInDim S1x256 ![] bcast_S_S1x256 (constant (F := Ideal) S_ .f32 0x47C35000#32)) := by
    show StableHlo.after hostOps1 (W2 m ρ c) (Proc.devRef .tc main_v40) = _
    after_results
  rw [e, W2_arr m ρ c 3]
  rfl

theorem var1_eq (c : Dev nD) : row1 (V3 m ρ c main_v46)
    = varOf ((dat0 (V1 m ρ) c).arrAt 3 cfg0.N : Layer.Arr2 1 256) ((dat0 (V1 m ρ) c).arrAt 4 cfg0.N : Layer.Arr2 1 256) := by
  have e : V3 m ρ c main_v46
      = maximumf (subf (Host.divf (W2 m ρ c (Proc.devRef .tc main_v38_2)) (broadcastInDim S1x256 ![] bcast_S_S1x256 (constant (F := Ideal) S_ .f32 0x47C35000#32)))
          (mulf (Host.divf (W2 m ρ c (Proc.devRef .tc main_v38_1)) (broadcastInDim S1x256 ![] bcast_S_S1x256 (constant (F := Ideal) S_ .f32 0x47C35000#32)))
                (Host.divf (W2 m ρ c (Proc.devRef .tc main_v38_1)) (broadcastInDim S1x256 ![] bcast_S_S1x256 (constant (F := Ideal) S_ .f32 0x47C35000#32)))))
          (broadcastInDim S1x256 ![] bcast_S_S1x256 (constant (F := Ideal) S_ .f32 0x00000000#32)) := by
    show StableHlo.after hostOps1 (W2 m ρ c) (Proc.devRef .tc main_v46) = _
    after_results
  rw [e, W2_arr m ρ c 3, W2_arr m ρ c 4]
  funext j
  show max _ (Ideal.ofBits .f32 0x00000000#32) = max _ 0
  rw [Ideal.ofBits_zero_f32]
  rfl

theorem g1_eq (c : Dev nD) : row1 (V3 m ρ c main_v34) = vec (m ((c : Thread nD τ).loc main_arg5)) := by
  have e : V3 m ρ c main_v34 = shapeCast S1x256 (m ((c : Thread nD τ).loc main_arg5)) shapeCasts_S256_S1x256 := by
    show StableHlo.after hostOps1 (W2 m ρ c) (Proc.devRef .tc main_v34) = _
    after_results
    rw [W2_of_ne m ρ c main_v34 (by decide)]
    show StableHlo.after hostOps0 (W0 m ρ c) (Proc.devRef .tc main_v34) = _
    after_results
    rfl
  rw [e]
  funext j
  exact shapeCast_a_1a_apply _ _ 0 j

theorem b1_eq (c : Dev nD) : row1 (V3 m ρ c main_v35) = vec (m ((c : Thread nD τ).loc main_arg6)) := by
  have e : V3 m ρ c main_v35 = shapeCast S1x256 (m ((c : Thread nD τ).loc main_arg6)) shapeCasts_S256_S1x256 := by
    show StableHlo.after hostOps1 (W2 m ρ c) (Proc.devRef .tc main_v35) = _
    after_results
    rw [W2_of_ne m ρ c main_v35 (by decide)]
    show StableHlo.after hostOps0 (W0 m ρ c) (Proc.devRef .tc main_v35) = _
    after_results
    rfl
  rw [e]
  funext j
  exact shapeCast_a_1a_apply _ _ 0 j

theorem w2_eq (c : Dev nD) : (V3 m ρ c main_v33 : Layer.Arr2 256 128) = Layer.transpose (m ((c : Thread nD τ).loc main_arg7)) := by
  have e : V3 m ρ c main_v33 = transpose S256x128 [1, 0] (m ((c : Thread nD τ).loc main_arg7)) transposes_S128x256_S256x128_1_0 := by
    show StableHlo.after hostOps1 (W2 m ρ c) (Proc.devRef .tc main_v33) = _
    after_results
    rw [W2_of_ne m ρ c main_v33 (by decide)]
    show StableHlo.after hostOps0 (W0 m ρ c) (Proc.devRef .tc main_v33) = _
    after_results
  rw [e]
  funext i
  obtain ⟨p, q, rfl⟩ : ∃ (p : Fin 256) (q : Fin 128), i = ix2 p q := ⟨i 0, i 1, eq_ix2 i⟩
  exact transpose_ix2_apply _ _ p q

/-! ## Between regions 1 and 2 -/

theorem y2_eq (c : Dev nD) : V5 m ρ c main_v47_0 = (dat1 (V3 m ρ) c).arrAt 6 cfg1.N := by
  show StableHlo.after hostOps2 (W4 m ρ c) (Proc.devRef .tc main_v47_0) = _
  after_results
  exact W4_arr m ρ c 6

theorem mean2_eq (c : Dev nD) : row1 (V5 m ρ c main_v49) = meanOf ((dat1 (V3 m ρ) c).arrAt 7 cfg1.N : Layer.Arr2 1 128) := by
  have e : V5 m ρ c main_v49
      = Host.divf (W4 m ρ c (Proc.devRef .tc main_v47_1)) (broadcastInDim S1x128 ![] bcast_S_S1x128 (constant (F := Ideal) S_ .f32 0x47C35000#32)) := by
    show StableHlo.after hostOps2 (W4 m ρ c) (Proc.devRef .tc main_v49) = _
    after_results
  rw [e, W4_arr m ρ c 7]
  rfl

theorem var2_eq (c : Dev nD) : row1 (V5 m ρ c main_v55)
    = varOf ((dat1 (V3 m ρ) c).arrAt 7 cfg1.N : Layer.Arr2 1 128) ((dat1 (V3 m ρ) c).arrAt 8 cfg1.N : Layer.Arr2 1 128) := by
  have e : V5 m ρ c main_v55
      = maximumf (subf (Host.divf (W4 m ρ c (Proc.devRef .tc main_v47_2)) (broadcastInDim S1x128 ![] bcast_S_S1x128 (constant (F := Ideal) S_ .f32 0x47C35000#32)))
          (mulf (Host.divf (W4 m ρ c (Proc.devRef .tc main_v47_1)) (broadcastInDim S1x128 ![] bcast_S_S1x128 (constant (F := Ideal) S_ .f32 0x47C35000#32)))
                (Host.divf (W4 m ρ c (Proc.devRef .tc main_v47_1)) (broadcastInDim S1x128 ![] bcast_S_S1x128 (constant (F := Ideal) S_ .f32 0x47C35000#32)))))
          (broadcastInDim S1x128 ![] bcast_S_S1x128 (constant (F := Ideal) S_ .f32 0x00000000#32)) := by
    show StableHlo.after hostOps2 (W4 m ρ c) (Proc.devRef .tc main_v55) = _
    after_results
  rw [e, W4_arr m ρ c 7, W4_arr m ρ c 8]
  funext j
  show max _ (Ideal.ofBits .f32 0x00000000#32) = max _ 0
  rw [Ideal.ofBits_zero_f32]
  rfl

theorem g2_eq (c : Dev nD) : row1 (V5 m ρ c main_v36) = vec (m ((c : Thread nD τ).loc main_arg8)) := by
  have e : V5 m ρ c main_v36 = shapeCast S1x128 (m ((c : Thread nD τ).loc main_arg8)) shapeCasts_S128_S1x128 := by
    show StableHlo.after hostOps2 (W4 m ρ c) (Proc.devRef .tc main_v36) = _
    after_results
    rw [W4_of_ne m ρ c main_v36 (by decide)]
    show StableHlo.after hostOps1 (W2 m ρ c) (Proc.devRef .tc main_v36) = _
    after_results
    rw [W2_of_ne m ρ c main_v36 (by decide)]
    show StableHlo.after hostOps0 (W0 m ρ c) (Proc.devRef .tc main_v36) = _
    after_results
    rfl
  rw [e]
  funext j
  exact shapeCast_a_1a_apply _ _ 0 j

theorem b2_eq (c : Dev nD) : row1 (V5 m ρ c main_v37) = vec (m ((c : Thread nD τ).loc main_arg9)) := by
  have e : V5 m ρ c main_v37 = shapeCast S1x128 (m ((c : Thread nD τ).loc main_arg9)) shapeCasts_S128_S1x128 := by
    show StableHlo.after hostOps2 (W4 m ρ c) (Proc.devRef .tc main_v37) = _
    after_results
    rw [W4_of_ne m ρ c main_v37 (by decide)]
    show StableHlo.after hostOps1 (W2 m ρ c) (Proc.devRef .tc main_v37) = _
    after_results
    rw [W2_of_ne m ρ c main_v37 (by decide)]
    show StableHlo.after hostOps0 (W0 m ρ c) (Proc.devRef .tc main_v37) = _
    after_results
    rfl
  rw [e]
  funext j
  exact shapeCast_a_1a_apply _ _ 0 j

end Cert.KernelIdeal.Chain

end
-- ==== Proof.Tiles.lean ====
/-
  Sums over the 100000 rows taken 5000 rows at a time: the sum over the first 5000·k rows, how one more block of
  5000 rows extends it, and that twenty blocks are all the rows.
-/
import proofs.«143247_j50869592655513_1_alg».proof.Proof.Spec

noncomputable section

namespace Cert.Layer

open Idealize.ShloMosaic Idealize.ShloMosaic.ValueIdx

/-- Row `5000·k + r` of the 100000, for a block number `k < 20` and a row `r` inside the block. -/
def blockRow (k : ℕ) (hk : k < 20) (r : Fin 5000) : Fin 100000 := ⟨5000 * k + r.val, by have := r.isLt; omega⟩

/-- The sum of `f` over the first `5000·k` rows. -/
def prefixSum (f : Fin 100000 → EReal) (k : ℕ) : EReal :=
  ∑ q ∈ Finset.univ.filter (fun q : Fin 100000 => q.val < 5000 * k), f q

/-- No row has an index below zero, so the empty prefix sums to zero. -/
theorem prefixSum_zero (f : Fin 100000 → EReal) : prefixSum f 0 = 0 := by
  unfold prefixSum
  have hempty : Finset.univ.filter (fun q : Fin 100000 => q.val < 5000 * 0) = ∅ := by
    apply Finset.filter_eq_empty_iff.mpr
    intro q _
    omega
  rw [hempty, Finset.sum_empty]

/-- The index set of the first `5000·(k+1)` rows is the disjoint union of the first `5000·k` rows and the image of
block `k` under `blockRow`: an index below `5000·(k+1)` that is not below `5000·k` is `5000·k + r` with `r < 5000`. -/
theorem prefix_split (k : ℕ) (hk : k < 20) :
    Finset.univ.filter (fun q : Fin 100000 => q.val < 5000 * (k + 1)) =
      Finset.univ.filter (fun q : Fin 100000 => q.val < 5000 * k) ∪ Finset.univ.image (blockRow k hk) := by
  ext q
  simp only [Finset.mem_filter, Finset.mem_univ, true_and, Finset.mem_union, Finset.mem_image]
  constructor
  · intro h
    by_cases h' : q.val < 5000 * k
    · exact Or.inl h'
    · refine Or.inr ⟨⟨q.val - 5000 * k, by omega⟩, ?_⟩
      apply Fin.ext
      show 5000 * k + (q.val - 5000 * k) = q.val
      omega
  · rintro (h | ⟨r, rfl⟩)
    · omega
    · have hr := r.isLt
      show 5000 * k + r.val < 5000 * (k + 1)
      omega

/-- One more block: the first `5000·(k+1)` rows are the first `5000·k` and block `k`. -/
theorem prefixSum_succ (f : Fin 100000 → EReal) (k : ℕ) (hk : k < 20) :
    prefixSum f (k + 1) = prefixSum f k + ∑ r : Fin 5000, f (blockRow k hk r) := by
  unfold prefixSum
  rw [prefix_split k hk, Finset.sum_union, Finset.sum_image]
  · -- distinct rows of the block have distinct indices
    intro a _ b _ hab
    have hv : 5000 * k + a.val = 5000 * k + b.val := congrArg Fin.val hab
    apply Fin.ext
    omega
  · -- a row of block k has index at least 5000·k, so it is not in the earlier prefix
    rw [Finset.disjoint_left]
    intro q hq hq'
    simp only [Finset.mem_filter, Finset.mem_univ, true_and] at hq
    simp only [Finset.mem_image, Finset.mem_univ, true_and] at hq'
    obtain ⟨r, rfl⟩ := hq'
    have hv : 5000 * k + r.val < 5000 * k := hq
    omega

/-- Twenty blocks are all the rows. -/
theorem prefixSum_full (f : Fin 100000 → EReal) : prefixSum f 20 = ∑ q : Fin 100000, f q := by
  unfold prefixSum
  have hall : Finset.univ.filter (fun q : Fin 100000 => q.val < 5000 * 20) = Finset.univ := by
    apply Finset.filter_true_of_mem
    intro q _
    have := q.isLt
    omega
  rw [hall]

end Cert.Layer

end
-- ==== Proof.Region0.lean ====
/-
  Region 0: twenty grid points, each multiplying a block of 5000 rows by the whole weight matrix, storing the product
  block, and adding the block's column sums and column sums of squares into two one-row accumulators that are zeroed at
  the first point and written back after the last.
  At the extended reals the product array is the plain matrix product row by row, and the accumulators end at the column
  sums, and sums of squares, over all 100000 rows: a sum taken block by block is the sum.
-/
import proofs.«143247_j50869592655513_1_alg».proof.Proof.Gen.KernelIdeal.Frame
import proofs.«143247_j50869592655513_1_alg».proof.Proof.Spec
import proofs.«143247_j50869592655513_1_alg».proof.Proof.Tiles
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

/-! ## What each case of the body leaves in the three output buffers

The body has one store per output buffer at every point (the product block, the two updated accumulator rows) and, at the
first point, one earlier store of a zero row into each accumulator. Each store goes through the whole buffer, so the
last store's payload is what the buffer holds; at the first point the accumulator row that payload was computed from is
the zero row just stored. -/

section Pieces
variable {F : FTy → Type} [FloatOps F]

/-- The offsets of every load and store of the body: the origin. -/
theorem hz : (![0, 0] : Fin 2 → Nat) = fun _ => 0 := funext fun a => by fin_cases a <;> rfl

/-- After the first point the product buffer holds the product of the two loaded blocks. -/
theorem out_A_2 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : cond0_0 i) (x0 : Vec F S5000x128 .f32) (x1 : Vec F S128x256 .f32) :
    out0_A_2 c i a1 h1 a2 h2 a3 h3 a4 h4 a5 h5 hc x0 x1 = k0_pay3 x0 x1 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz]
  simp only [View.readAt_eq_ld, h1.read_unread, h2.read_unread, h4.read_unread, h5.read_unread,
    View.ld_unit_zero (S := S5000x128) hz, View.ld_unit_zero (S := S128x256) hz, View.ld_unit_zero (S := S1x256) hz]

/-- After the first point the sum buffer holds the zero row plus the block's column sums. -/
theorem out_A_3 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : cond0_0 i) (x0 : Vec F S5000x128 .f32) (x1 : Vec F S128x256 .f32) :
    out0_A_3 c i a1 h1 a2 h2 a3 h3 a4 h4 a5 h5 hc x0 x1 = k0_pay4 x0 x1 k0_pay1 := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S1x256) hz, View.readCov_unit_zero (S := S1x256) _ hz]
  simp only [View.readAt_eq_ld, h1.read_unread, h2.read_unread, h4.read_unread, h5.read_unread,
    View.ld_unit_zero (S := S5000x128) hz, View.ld_unit_zero (S := S128x256) hz, View.ld_unit_zero (S := S1x256) hz]

/-- After the first point the sum-of-squares buffer holds the zero row plus the block's column sums of squares. -/
theorem out_A_4 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : cond0_0 i) (x0 : Vec F S5000x128 .f32) (x1 : Vec F S128x256 .f32) :
    out0_A_4 c i a1 h1 a2 h2 a3 h3 a4 h4 a5 h5 hc x0 x1 = k0_pay5 x0 x1 k0_pay2 := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x256) hz, View.readCov_unit_zero (S := S1x256) _ hz]
  simp only [View.readAt_eq_ld, h1.read_unread, h2.read_unread, h4.read_unread, h5.read_unread,
    View.ld_unit_zero (S := S5000x128) hz, View.ld_unit_zero (S := S128x256) hz, View.ld_unit_zero (S := S1x256) hz]

/-- After a later point the product buffer holds the product of the two loaded blocks. -/
theorem out_B_2 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : ¬cond0_0 i) (x0 : Vec F S5000x128 .f32) (x1 : Vec F S128x256 .f32) (xo3 xo4 : Vec F S1x256 .f32) :
    out0_B_2 c i a1 h1 a2 h2 a3 h3 a4 h4 a5 h5 hc x0 x1 xo3 xo4 = k0_pay3 x0 x1 := by
  unfold out0_B_2
  rw [View.read_writes_eq_canon _ _ _ (cover0_B_2 c i a1 h1 a2 h2 a3 h3 a4 h4 a5 h5 hc x0 x1 xo3 xo4)]
  unfold kernelRun0_B
  dsimp only
  sl_unfold_words
  rw [View.canon_unit_zero hz]
  simp only [View.readAt_eq_ld, h1.read_unread, h2.read_unread, h4.read_unread, h5.read_unread,
    View.ld_unit_zero (S := S5000x128) hz, View.ld_unit_zero (S := S128x256) hz, View.ld_unit_zero (S := S1x256) hz]

/-- After a later point the sum buffer holds what it held plus the block's column sums. -/
theorem out_B_3 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : ¬cond0_0 i) (x0 : Vec F S5000x128 .f32) (x1 : Vec F S128x256 .f32) (xo3 xo4 : Vec F S1x256 .f32) :
    out0_B_3 c i a1 h1 a2 h2 a3 h3 a4 h4 a5 h5 hc x0 x1 xo3 xo4 = k0_pay4 x0 x1 xo3 := by
  unfold out0_B_3
  rw [View.read_writes_eq_canon _ _ _ (cover0_B_3 c i a1 h1 a2 h2 a3 h3 a4 h4 a5 h5 hc x0 x1 xo3 xo4)]
  unfold kernelRun0_B
  dsimp only
  sl_unfold_words
  rw [View.canon_unit_zero hz]
  simp only [View.readAt_eq_ld, h1.read_unread, h2.read_unread, h4.read_unread, h5.read_unread,
    View.ld_unit_zero (S := S5000x128) hz, View.ld_unit_zero (S := S128x256) hz, View.ld_unit_zero (S := S1x256) hz]

/-- After a later point the sum-of-squares buffer holds what it held plus the block's column sums of squares. -/
theorem out_B_4 (c : Dev nD) (i : grid0.Coords) (a1 : Memref sig .tc .vmem S5000x128 .f32) (h1 : a1.IsWhole)
    (a2 : Memref sig .tc .vmem S128x256 .f32) (h2 : a2.IsWhole) (a3 : Memref sig .tc .vmem S5000x256 .f32) (h3 : a3.IsWhole)
    (a4 : Memref sig .tc .vmem S1x256 .f32) (h4 : a4.IsWhole) (a5 : Memref sig .tc .vmem S1x256 .f32) (h5 : a5.IsWhole)
    (hc : ¬cond0_0 i) (x0 : Vec F S5000x128 .f32) (x1 : Vec F S128x256 .f32) (xo3 xo4 : Vec F S1x256 .f32) :
    out0_B_4 c i a1 h1 a2 h2 a3 h3 a4 h4 a5 h5 hc x0 x1 xo3 xo4 = k0_pay5 x0 x1 xo4 := by
  unfold out0_B_4
  rw [View.read_writes_eq_canon _ _ _ (cover0_B_4 c i a1 h1 a2 h2 a3 h3 a4 h4 a5 h5 hc x0 x1 xo3 xo4)]
  unfold kernelRun0_B
  dsimp only
  sl_unfold_words
  rw [View.canon_unit_zero hz]
  simp only [View.readAt_eq_ld, h1.read_unread, h2.read_unread, h4.read_unread, h5.read_unread,
    View.ld_unit_zero (S := S5000x128) hz, View.ld_unit_zero (S := S128x256) hz, View.ld_unit_zero (S := S1x256) hz]

end Pieces

/-! ## The body's arithmetic at an index, over the extended reals

A float is an exact extended real and a change of format is the identity, so the block product is the plain sum over
the contracted axis, and each accumulator update adds, to the row it loaded, the block's column sums (of the products,
or of their squares). -/

section Payloads

/-- The product's left operand is read at the output's row … -/
theorem lhs_axis0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- … and at the contraction position; -/
theorem lhs_axis1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
/-- the right operand at the contraction position … -/
theorem rhs_axis0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
/-- … and at the output's column. -/
theorem rhs_axis1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The product block: entry (r, j) is the sum over q of x(r, q) · w(q, j). -/
theorem pay3_apply (x : Vec Ideal S5000x128 .f32) (w : Vec Ideal S128x256 .f32) (r : Fin 5000) (j : Fin 256) :
    k0_pay3 (F := Ideal) x w (ix2 r j) = ∑ q : Fin 128, x (ix2 r q) * w (ix2 q j) := by
  unfold k0_pay3
  refine (Ideal.matmul_constant_zero_apply dot_S5000x128_S128x256_S5000x256_1_0_0_1_n_n none _ _ (ix2 r j)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 r j) ((contrEquiv1 dot_S5000x128_S128x256_S5000x256_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x256_S5000x256_1_0_0_1_n_n.rhsIdx (ix2 r j) ((contrEquiv1 dot_S5000x128_S128x256_S5000x256_1_0_0_1_n_n 128 rfl rfl).symm k) = ix2 k j := funext fun a => Fin.ext (by
    match a with
    | ⟨0, _⟩ => exact (rhs_axis0 _ _).trans hk
    | ⟨1, _⟩ => exact rhs_axis1 _ _)
  rw [el, er, truncf_apply, truncf_apply, shapeCast_self, shapeCast_self]

/-- A block's reduction along its rows, at column j: the sum over the block's 5000 rows. -/
theorem colReduce_apply (y : FVec Ideal S5000x256 .f32) (hφ : FKind.Formats FTy.f32)
    (hacc : (0x00000000#32 : BitVec 32) = 0x00000000#32) (j : Fin 256) :
    multiReduction (F := Ideal) .add [0] S256 y 0x00000000#32 reduces_S5000x256_S256 hφ hacc (ix1 j) = ∑ r : Fin 5000, y (ix2 r j) := by
  refine (Ideal.multiReduction_add_single y 0x00000000#32 reduces_S5000x256_S256 hφ hacc (ix1 j)).trans ?_
  refine Finset.sum_congr rfl fun r _ => congrArg y ?_
  funext a
  apply Fin.ext
  match a with
  | ⟨0, _⟩ => rfl
  | ⟨1, _⟩ => rfl

/-- The sum update: the loaded row plus the column sums of the product block. -/
theorem pay4_apply (x : Vec Ideal S5000x128 .f32) (w : Vec Ideal S128x256 .f32) (acc : Vec Ideal S1x256 .f32) (u : Fin 1) (j : Fin 256) :
    k0_pay4 (F := Ideal) x w acc (ix2 u j) = acc (ix2 u j) + ∑ r : Fin 5000, k0_pay3 (F := Ideal) x w (ix2 r j) := by
  unfold k0_pay4
  refine (addf_apply _ _ (ix2 u j)).trans ?_
  rw [shapeCast_self, shapeCast_a_1a_apply]
  exact congrArg (acc (ix2 u j) + ·) (colReduce_apply _ _ _ j)

/-- The sum-of-squares update: the loaded row plus the column sums of the squared product block. -/
theorem pay5_apply (x : Vec Ideal S5000x128 .f32) (w : Vec Ideal S128x256 .f32) (acc : Vec Ideal S1x256 .f32) (u : Fin 1) (j : Fin 256) :
    k0_pay5 (F := Ideal) x w acc (ix2 u j)
      = acc (ix2 u j) + ∑ r : Fin 5000, k0_pay3 (F := Ideal) x w (ix2 r j) * k0_pay3 (F := Ideal) x w (ix2 r j) := by
  unfold k0_pay5
  refine (addf_apply _ _ (ix2 u j)).trans ?_
  rw [shapeCast_self, shapeCast_a_1a_apply]
  exact congrArg (acc (ix2 u j) + ·) (colReduce_apply _ _ _ j)

/-- The zero row the first point stores into the sum buffer. -/
theorem pay1_apply (i : S1x256.Idx) : k0_pay1 (F := Ideal) i = 0 := Ideal.ofBits_zero_f32
/-- The zero row the first point stores into the sum-of-squares buffer. -/
theorem pay2_apply (i : S1x256.Idx) : k0_pay2 (F := Ideal) i = 0 := Ideal.ofBits_zero_f32

end Payloads

variable (V : (c : Dev nD) → (b : Ref sig .tc) → Buf (Elt Ideal) ((c : Thread nD τ).loc b))

/-- The rows the region reads (its first operand, 100000 × 128). -/
abbrev rows (c : Dev nD) : Layer.Arr2 100000 128 := V c main_v31
/-- The weights (its second operand, 128 × 256). -/
abbrev weights (c : Dev nD) : Layer.Arr2 128 256 := V c main_v32
/-- Their product. -/
abbrev prod (c : Dev nD) : Layer.Arr2 100000 256 := Layer.mul (rows V c) (weights V c)

/-! ## The blocks a point reads

Point t reads rows 5000·t … 5000·t + 4999 of the first operand and the whole second operand, writes rows
5000·t … 5000·t + 4999 of the product array, and sees the one block of each accumulator array. -/

/-- Which block of its array each window is on at point t, decided over the twenty points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The block of rows point t loads. -/
abbrev xblk (c : Dev nD) (t : Fin cfg0.N) : Vec Ideal S5000x128 .f32 := iblk0 V c 0 t
/-- The weights as point t loads them. -/
abbrev wblk (c : Dev nD) (t : Fin cfg0.N) : Vec Ideal S128x256 .f32 := iblk0 V c 1 t

/-- Row r of point t's block is row 5000·t + r of the operand. -/
theorem xblk_apply (c : Dev nD) (t : Fin cfg0.N) (ht : t.val < 20) (r : Fin 5000) (q : Fin 128) :
    xblk V c t (ix2 r q) = rows V c (ix2 (Layer.blockRow t.val ht r) q) := by
  obtain ⟨e0, e1, -⟩ := block_index t
  show V c main_v31 (((cfg0.win 0).blk t).view.emb (ix2 r q)) = V c main_v31 (ix2 (Layer.blockRow t.val ht r) q)
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * q.val = q.val; rw [e1]; omega

/-- Every point loads the whole weight matrix. -/
theorem wblk_apply (c : Dev nD) (t : Fin cfg0.N) (q : Fin 128) (j : Fin 256) :
    wblk V c t (ix2 q j) = weights V c (ix2 q j) := by
  obtain ⟨-, -, e0, e1, -⟩ := block_index t
  show V c main_v32 (((cfg0.win 1).blk t).view.emb (ix2 q j)) = V c main_v32 (ix2 q j)
  congr 1
  funext a
  apply Fin.ext
  match a with
  | ⟨0, _⟩ => show win0_1.index t (0 : Fin 2) * 128 + 1 * q.val = q.val; rw [e0]; omega
  | ⟨1, _⟩ => show win0_1.index t (1 : Fin 2) * 256 + 1 * j.val = j.val; rw [e1]; omega

/-- The product block point t computes is rows 5000·t … of the product. -/
theorem prod_block (c : Dev nD) (t : Fin cfg0.N) (ht : t.val < 20) (r : Fin 5000) (j : Fin 256) :
    k0_pay3 (F := Ideal) (xblk V c t) (wblk V c t) (ix2 r j) = prod V c (ix2 (Layer.blockRow t.val ht r) j) := by
  refine (pay3_apply (xblk V c t) (wblk V c t) r j).trans ?_
  show _ = ∑ q : Fin 128, rows V c (ix2 (Layer.blockRow t.val ht r) q) * weights V c (ix2 q j)
  refine Finset.sum_congr rfl fun q _ => ?_
  rw [xblk_apply V c t ht r q, wblk_apply V c t q j]

/-! ## What the three buffers hold after each point -/

/-- After the first point: the product block, and each accumulator row at zero plus the block's contribution. -/
theorem outs_first (c : Dev nD) (t : Fin cfg0.N) (h0 : t.val % 20 = 0) :
    outsAt0 V c t.val t.isLt
      = (k0_pay3 (xblk V c t) (wblk V c t), k0_pay4 (xblk V c t) (wblk V c t) (k0_pay1 (F := Ideal)),
          k0_pay5 (xblk V c t) (wblk V c t) (k0_pay2 (F := Ideal))) := by
  rw [outsAt0_A V c t h0,
    out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
    out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
    out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)]

/-- After a later point: the product block, and each accumulator row at what the point before left plus the block's
contribution. -/
theorem outs_later (c : Dev nD) (t : Fin cfg0.N) (h0 : ¬t.val % 20 = 0) :
    outsAt0 V c t.val t.isLt
      = (k0_pay3 (xblk V c t) (wblk V c t), k0_pay4 (xblk V c t) (wblk V c t) (outsAt0 V c (t.val - 1) (Nat.lt_of_le_of_lt (Nat.sub_le _ _) t.isLt)).2.1,
          k0_pay5 (xblk V c t) (wblk V c t) (outsAt0 V c (t.val - 1) (Nat.lt_of_le_of_lt (Nat.sub_le _ _) t.isLt)).2.2) := by
  rw [outsAt0_B V c t h0,
    out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
    out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
    out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2]

/-- The same at point n + 1, over what point n left. -/
theorem outs_succ (c : Dev nD) (n : ℕ) (h : n + 1 < cfg0.N) :
    outsAt0 V c (n + 1) h
      = (k0_pay3 (xblk V c ⟨n + 1, h⟩) (wblk V c ⟨n + 1, h⟩),
          k0_pay4 (xblk V c ⟨n + 1, h⟩) (wblk V c ⟨n + 1, h⟩) (outsAt0 V c n (Nat.lt_of_succ_lt h)).2.1,
          k0_pay5 (xblk V c ⟨n + 1, h⟩) (wblk V c ⟨n + 1, h⟩) (outsAt0 V c n (Nat.lt_of_succ_lt h)).2.2) :=
  have hN : cfg0.N = 20 := N_0
  outs_later V c ⟨n + 1, h⟩ (by dsimp only; omega)

/-- At every point the product buffer ends at the point's product block. -/
theorem outs_product (c : Dev nD) (t : Fin cfg0.N) :
    (outsAt0 V c t.val t.isLt).1 = k0_pay3 (xblk V c t) (wblk V c t) := by
  by_cases h0 : t.val % 20 = 0
  · rw [outs_first V c t h0]
  · rw [outs_later V c t h0]

/-! ## The accumulators are prefix sums

After point n each accumulator row holds, at column j, the sum over the first 5000·(n + 1) rows of the product (of
its squares): the first point starts from the stored zero and adds block 0, each later point adds its block. -/

/-- Column j of the product, row by row. -/
abbrev colOf (c : Dev nD) (j : Fin 256) : Fin 100000 → EReal := fun q => prod V c (ix2 q j)
/-- Column j of the squared product, row by row. -/
abbrev sqOf (c : Dev nD) (j : Fin 256) : Fin 100000 → EReal := fun q => prod V c (ix2 q j) * prod V c (ix2 q j)

/-- The block of point t contributes the rows 5000·t … 5000·t + 4999 of column j. -/
theorem block_col (c : Dev nD) (t : Fin cfg0.N) (ht : t.val < 20) (j : Fin 256) :
    ∑ r : Fin 5000, k0_pay3 (F := Ideal) (xblk V c t) (wblk V c t) (ix2 r j)
      = ∑ r : Fin 5000, colOf V c j (Layer.blockRow t.val ht r) :=
  Finset.sum_congr rfl fun r _ => prod_block V c t ht r j
/-- The same for the squares. -/
theorem block_sq (c : Dev nD) (t : Fin cfg0.N) (ht : t.val < 20) (j : Fin 256) :
    ∑ r : Fin 5000, k0_pay3 (F := Ideal) (xblk V c t) (wblk V c t) (ix2 r j) * k0_pay3 (F := Ideal) (xblk V c t) (wblk V c t) (ix2 r j)
      = ∑ r : Fin 5000, sqOf V c j (Layer.blockRow t.val ht r) :=
  Finset.sum_congr rfl fun r _ => by rw [prod_block V c t ht r j]

/-- After point n each accumulator row holds, at column j, the sum over the first 5000·(n + 1) rows: by induction on the
point, the first point adding block 0 to zero and each later point adding its block to what the point before left. -/
theorem acc_inv (c : Dev nD) : ∀ (n : ℕ) (h : n < cfg0.N) (u : Fin 1) (j : Fin 256),
    ((outsAt0 V c n h).2.1 : Vec Ideal S1x256 .f32) (ix2 u j) = Layer.prefixSum (colOf V c j) (n + 1)
    ∧ ((outsAt0 V c n h).2.2 : Vec Ideal S1x256 .f32) (ix2 u j) = Layer.prefixSum (sqOf V c j) (n + 1)
  | 0, h, u, j => by
    have e : outsAt0 V c 0 h = _ := outs_first V c ⟨0, h⟩ rfl
    rw [e]
    dsimp only
    rw [pay4_apply, pay5_apply, pay1_apply, pay2_apply, block_col V c ⟨0, h⟩ (show (0 : ℕ) < 20 by decide) j,
      block_sq V c ⟨0, h⟩ (show (0 : ℕ) < 20 by decide) j,
      Layer.prefixSum_succ _ 0 (by decide), Layer.prefixSum_succ _ 0 (by decide), Layer.prefixSum_zero, Layer.prefixSum_zero]
    exact ⟨rfl, rfl⟩
  | n + 1, h, u, j => by
    have hN : cfg0.N = 20 := N_0
    have hn : n + 1 < 20 := by omega
    obtain ⟨i1, i2⟩ := acc_inv c n (Nat.lt_of_succ_lt h) u j
    rw [outs_succ V c n h]
    dsimp only
    rw [pay4_apply, pay5_apply, i1, i2, block_col V c ⟨n + 1, h⟩ hn j, block_sq V c ⟨n + 1, h⟩ hn j,
      Layer.prefixSum_succ _ (n + 1) hn, Layer.prefixSum_succ _ (n + 1) hn]
    exact ⟨rfl, rfl⟩

/-! ## The arrays after the region -/

/-- The sum row: the column sums over all rows. -/
abbrev sumRow (c : Dev nD) : Layer.Arr2 1 256 := fun j => Layer.colSum (prod V c) (j 1)
/-- The sum-of-squares row. -/
abbrev sumsqRow (c : Dev nD) : Layer.Arr2 1 256 := fun j => Layer.colSumSq (prod V c) (j 1)

/-- What point t writes back to the product array is rows 5000·t … 5000·t + 4999 of the product. -/
theorem flushed_y (c : Dev nD) (t : Fin cfg0.N) :
    (dat0 (F := Ideal) V c).flushed 2 t = ((cfg0.win 2).blk t).view.read (Elt Ideal) (prod V c) := by
  have hN : cfg0.N = 20 := N_0
  have ht : t.val < 20 := by have := t.isLt; omega
  obtain ⟨-, -, -, -, e0, e1, -⟩ := block_index t
  show (cfg0.win 2).cut (grid0.coords t) ((dat0 V c).after 2 t) = _
  rw [after0_2, outs_product V c t]
  refine funext fun (y : S5000x256.Idx) => ?_
  obtain ⟨r, j, rfl⟩ : ∃ (r : Fin 5000) (j : Fin 256), y = ix2 r j := ⟨y 0, y 1, eq_ix2 y⟩
  show k0_pay3 (F := Ideal) (xblk V c t) (wblk V c t) (ix2 r j) = prod V c (((cfg0.win 2).blk t).view.emb (ix2 r j))
  rw [prod_block V c t ht r j]
  congr 1
  funext a
  apply Fin.ext
  match a with
  | ⟨0, _⟩ => show 5000 * t.val + r.val = win0_2.index t (0 : Fin 2) * 5000 + 1 * r.val; rw [e0]; omega
  | ⟨1, _⟩ => show j.val = win0_2.index t (1 : Fin 2) * 256 + 1 * j.val; rw [e1]; omega

/-- An index of the product array is in point t's block iff each coordinate is in the block's range. -/
theorem mem_blk_y (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v38_0).slice (win0_2.rect t)).set ↔ _
  rw [View.set_slice_whole, Rect.mem_set_unit]
  exact Iff.rfl

/-- The product array after the region. -/
theorem y_final (c : Dev nD) : ((dat0 (F := Ideal) V c).arrAt 2 cfg0.N : Layer.Arr2 100000 256) = prod V c := by
  have hN : cfg0.N = 20 := N_0
  refine (dat0 V c).arrAt_eq_of_cover 2 (prod V c) (fun t _ => flushed_y V c t) fun i => ?_
  have hi0 : (i 0).val < 100000 := (i 0).isLt
  have hi1 : (i 1).val < 256 := (i 1).isLt
  refine ⟨⟨(i 0).val / 5000, by omega⟩, flush0_2 _, ?_⟩
  obtain ⟨-, -, -, -, e0, e1, -⟩ := block_index ⟨(i 0).val / 5000, by omega⟩
  rw [mem_blk_y]
  intro a
  match a with
  | ⟨0, _⟩ =>
    show win0_2.index _ (0 : Fin 2) * 5000 ≤ (i 0).val ∧ (i 0).val < win0_2.index _ (0 : Fin 2) * 5000 + 5000
    rw [e0]; dsimp only; omega
  | ⟨1, _⟩ =>
    show win0_2.index _ (1 : Fin 2) * 256 ≤ (i 1).val ∧ (i 1).val < win0_2.index _ (1 : Fin 2) * 256 + 256
    rw [e1]; omega

/-- A row whose every entry (u, j) is G(0, j) is what the sum window's block reads off G: the block is the whole
one-row array. -/
theorem read_row_sum (t : Fin cfg0.N) (G : Layer.Arr2 1 256) (X : Vec Ideal S1x256 .f32)
    (h : ∀ (u : Fin 1) (j : Fin 256), X (ix2 u j) = G (ix2 (0 : Fin 1) j)) :
    (cfg0.win 3).cut (grid0.coords t) X = ((cfg0.win 3).blk t).view.read (Elt Ideal) G := by
  obtain ⟨-, -, -, -, -, -, e30, e31, e40, e41⟩ := block_index t
  refine funext fun (y : S1x256.Idx) => ?_
  obtain ⟨u, j, rfl⟩ : ∃ (u : Fin 1) (j : Fin 256), y = ix2 u j := ⟨y 0, y 1, eq_ix2 y⟩
  show X (ix2 u j) = G (((cfg0.win 3).blk t).view.emb (ix2 u j))
  rw [h u j]
  congr 1
  funext a
  apply Fin.ext
  match a with
  | ⟨0, _⟩ => show 0 = win0_3.index t (0 : Fin 2) * 1 + 1 * u.val; rw [e30]; omega
  | ⟨1, _⟩ => show j.val = win0_3.index t (1 : Fin 2) * 256 + 1 * j.val; rw [e31]; omega

/-- The one write-back of the sum array, after the last point, writes the whole row of column sums: twenty blocks are all the rows. -/
theorem flushed_sum (c : Dev nD) (t : Fin cfg0.N) (hf : (cfg0.win 3).flush t = true) :
    (dat0 (F := Ideal) V c).flushed 3 t = ((cfg0.win 3).blk t).view.read (Elt Ideal) (sumRow V c) := by
  have hN : cfg0.N = 20 := N_0
  have h19 : t.val = 19 := by have := (flush0_3 t).mp hf; have := t.isLt; omega
  show (cfg0.win 3).cut (grid0.coords t) ((dat0 V c).after 3 t) = _
  rw [after0_3]
  refine read_row_sum t (sumRow V c) (outsAt0 V c t.val t.isLt).2.1 fun u j => ?_
  rw [(acc_inv V c t.val t.isLt u j).1, h19, Layer.prefixSum_full]
  rfl

/-- An index of the sum array is in point t's block iff each coordinate is in the block's range. -/
theorem mem_blk_sum (t : Fin cfg0.N) (i : S1x256.Idx) :
    i ∈ ((cfg0.win 3).blk t).view.set ↔ ∀ a : Fin 2, win0_3.index t a * S1x256.size a ≤ (i a).val ∧ (i a).val < win0_3.index t a * S1x256.size a + S1x256.size a := by
  show i ∈ ((View.whole main_v38_1).slice (win0_3.rect t)).set ↔ _
  rw [View.set_slice_whole, Rect.mem_set_unit]
  exact Iff.rfl

/-- A row whose every entry (u, j) is G(0, j) is what the sum-of-squares window's block reads off G: the block is the whole
one-row array. -/
theorem read_row_sumsq (t : Fin cfg0.N) (G : Layer.Arr2 1 256) (X : Vec Ideal S1x256 .f32)
    (h : ∀ (u : Fin 1) (j : Fin 256), X (ix2 u j) = G (ix2 (0 : Fin 1) j)) :
    (cfg0.win 4).cut (grid0.coords t) X = ((cfg0.win 4).blk t).view.read (Elt Ideal) G := by
  obtain ⟨-, -, -, -, -, -, e30, e31, e40, e41⟩ := block_index t
  refine funext fun (y : S1x256.Idx) => ?_
  obtain ⟨u, j, rfl⟩ : ∃ (u : Fin 1) (j : Fin 256), y = ix2 u j := ⟨y 0, y 1, eq_ix2 y⟩
  show X (ix2 u j) = G (((cfg0.win 4).blk t).view.emb (ix2 u j))
  rw [h u j]
  congr 1
  funext a
  apply Fin.ext
  match a with
  | ⟨0, _⟩ => show 0 = win0_4.index t (0 : Fin 2) * 1 + 1 * u.val; rw [e40]; omega
  | ⟨1, _⟩ => show j.val = win0_4.index t (1 : Fin 2) * 256 + 1 * j.val; rw [e41]; omega

/-- The one write-back of the sum-of-squares array, after the last point, writes the whole row of column sums of squares: twenty blocks are all the rows. -/
theorem flushed_sumsq (c : Dev nD) (t : Fin cfg0.N) (hf : (cfg0.win 4).flush t = true) :
    (dat0 (F := Ideal) V c).flushed 4 t = ((cfg0.win 4).blk t).view.read (Elt Ideal) (sumsqRow V c) := by
  have hN : cfg0.N = 20 := N_0
  have h19 : t.val = 19 := by have := (flush0_4 t).mp hf; have := t.isLt; omega
  show (cfg0.win 4).cut (grid0.coords t) ((dat0 V c).after 4 t) = _
  rw [after0_4]
  refine read_row_sumsq t (sumsqRow V c) (outsAt0 V c t.val t.isLt).2.2 fun u j => ?_
  rw [(acc_inv V c t.val t.isLt u j).2, h19, Layer.prefixSum_full]
  rfl

/-- An index of the sum-of-squares array is in point t's block iff each coordinate is in the block's range. -/
theorem mem_blk_sumsq (t : Fin cfg0.N) (i : S1x256.Idx) :
    i ∈ ((cfg0.win 4).blk t).view.set ↔ ∀ a : Fin 2, win0_4.index t a * S1x256.size a ≤ (i a).val ∧ (i a).val < win0_4.index t a * S1x256.size a + S1x256.size a := by
  show i ∈ ((View.whole main_v38_2).slice (win0_4.rect t)).set ↔ _
  rw [View.set_slice_whole, Rect.mem_set_unit]
  exact Iff.rfl

/-- The sum accumulator after the region: the column sums over all rows. -/
theorem sum_final (c : Dev nD) :
    ((dat0 (F := Ideal) V c).arrAt 3 cfg0.N : Layer.Arr2 1 256) = fun j => Layer.colSum (prod V c) (j 1) := by
  have hN : cfg0.N = 20 := N_0
  refine (dat0 V c).arrAt_eq_of_cover 3 (sumRow V c) (flushed_sum V c) fun i => ?_
  have hi0 : (i 0).val < 1 := (i 0).isLt
  have hi1 : (i 1).val < 256 := (i 1).isLt
  refine ⟨⟨19, by omega⟩, (flush0_3 _).mpr rfl, ?_⟩
  obtain ⟨-, -, -, -, -, -, e30, e31, e40, e41⟩ := block_index ⟨19, by omega⟩
  rw [mem_blk_sum]
  intro a
  match a with
  | ⟨0, _⟩ =>
    show win0_3.index _ (0 : Fin 2) * 1 ≤ (i 0).val ∧ (i 0).val < win0_3.index _ (0 : Fin 2) * 1 + 1
    rw [e30]; omega
  | ⟨1, _⟩ =>
    show win0_3.index _ (1 : Fin 2) * 256 ≤ (i 1).val ∧ (i 1).val < win0_3.index _ (1 : Fin 2) * 256 + 256
    rw [e31]; omega

/-- The sum-of-squares accumulator after the region. -/
theorem sumsq_final (c : Dev nD) :
    ((dat0 (F := Ideal) V c).arrAt 4 cfg0.N : Layer.Arr2 1 256) = fun j => Layer.colSumSq (prod V c) (j 1) := by
  have hN : cfg0.N = 20 := N_0
  refine (dat0 V c).arrAt_eq_of_cover 4 (sumsqRow V c) (flushed_sumsq V c) fun i => ?_
  have hi0 : (i 0).val < 1 := (i 0).isLt
  have hi1 : (i 1).val < 256 := (i 1).isLt
  refine ⟨⟨19, by omega⟩, (flush0_4 _).mpr rfl, ?_⟩
  obtain ⟨-, -, -, -, -, -, e30, e31, e40, e41⟩ := block_index ⟨19, by omega⟩
  rw [mem_blk_sumsq]
  intro a
  match a with
  | ⟨0, _⟩ =>
    show win0_4.index _ (0 : Fin 2) * 1 ≤ (i 0).val ∧ (i 0).val < win0_4.index _ (0 : Fin 2) * 1 + 1
    rw [e40]; omega
  | ⟨1, _⟩ =>
    show win0_4.index _ (1 : Fin 2) * 256 ≤ (i 1).val ∧ (i 1).val < win0_4.index _ (1 : Fin 2) * 256 + 256
    rw [e41]; omega

end Cert.KernelIdeal.Region0
end
-- ==== Proof.Region1.lean ====
/-
  Region 1: twenty grid points, each normalising a block of 5000 rows of the first product with the first stage's
  column means and variances, scaling, shifting and taking the positive part, multiplying the result by the second
  weight matrix, storing the product block, and adding the block's column sums and column sums of squares into two
  one-row accumulators that are zeroed at the first point and written back after the last.
  At the extended reals the stored array is the matrix product of the normalised rows with the weights, and the
  accumulators end at its column sums, and sums of squares, over all 100000 rows.
-/
import proofs.«143247_j50869592655513_1_alg».proof.Proof.Gen.KernelIdeal.Frame
import proofs.«143247_j50869592655513_1_alg».proof.Proof.Spec
import proofs.«143247_j50869592655513_1_alg».proof.Proof.Tiles
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- A one-row array read as a function of the column. -/
abbrev row1 {m : Nat} (x : Layer.Arr2 1 m) : Fin m → EReal := fun j => x (ix2 0 j)

/-- The normalised, scaled, shifted and clamped rows: the region's first operand under the four one-row operands
    (mean, variance, scale, shift). -/
abbrev act (c : Dev nD) : Layer.Arr2 100000 256 :=
  Layer.bnRelu (V c main_v38_0) (row1 (V c main_v40)) (row1 (V c main_v46)) (row1 (V c main_v34)) (row1 (V c main_v35))
/-- Their product with the weights (the sixth operand, 256 × 128). -/
abbrev prod (c : Dev nD) : Layer.Arr2 100000 128 := Layer.mul (act V c) (V c main_v33 : Layer.Arr2 256 128)

/-! ## What each case's stores leave, as the payloads of the loaded blocks -/

section Pieces
variable {F : FTy → Type} [FloatOps F]

/-- Every store and load of the body is at offset (0, 0) of a buffer it spans. -/
theorem hz : (![0, 0] : Fin 2 → Nat) = fun _ => 0 := funext fun a => by fin_cases a <;> rfl

/-- At a later point the product block is the one store's payload. -/
theorem out_B_6 (c : Dev nD) (i : grid1.Coords) (a1 : Memref sig .tc .vmem S5000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond1_0 i) (x0 : Vec F S5000x256 .f32) (x1 : Vec F S1x256 .f32) (x2 : Vec F S1x256 .f32) (x3 : Vec F S1x256 .f32) (x4 : Vec F S1x256 .f32) (x5 : Vec F S256x128 .f32) (xo7 xo8 : Vec F S1x128 .f32) :
    out1_B_6 c i a1 h1 a2 h2 a3 h3 a4 h4 a5 h5 a6 h6 a7 h7 a8 h8 a9 h9 hc x0 x1 x2 x3 x4 x5 xo7 xo8 = k1_pay5 x0 x1 x2 x3 x4 x5 := by
  unfold out1_B_6
  rw [View.read_writes_eq_canon _ _ _ (cover1_B_6 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero (S := S5000x128) hz]
  simp only [View.readAt_eq_ld, h1.read_unread, h2.read_unread, h3.read_unread, h4.read_unread, h5.read_unread, h6.read_unread, h8.read_unread, h9.read_unread,
    View.ld_unit_zero (S := S5000x256) hz, View.ld_unit_zero (S := S1x256) hz, View.ld_unit_zero (S := S256x128) hz, View.ld_unit_zero (S := S1x128) hz]

/-- At a later point the sum accumulator is what it held plus the block's column sums. -/
theorem out_B_7 (c : Dev nD) (i : grid1.Coords) (a1 : Memref sig .tc .vmem S5000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond1_0 i) (x0 : Vec F S5000x256 .f32) (x1 : Vec F S1x256 .f32) (x2 : Vec F S1x256 .f32) (x3 : Vec F S1x256 .f32) (x4 : Vec F S1x256 .f32) (x5 : Vec F S256x128 .f32) (xo7 xo8 : Vec F S1x128 .f32) :
    out1_B_7 c i a1 h1 a2 h2 a3 h3 a4 h4 a5 h5 a6 h6 a7 h7 a8 h8 a9 h9 hc x0 x1 x2 x3 x4 x5 xo7 xo8 = k1_pay1 (k1_pay6 xo7) (k1_pay7 x0 x1 x2 x3 x4 x5) := by
  unfold out1_B_7
  rw [View.read_writes_eq_canon _ _ _ (cover1_B_7 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero (S := S1x128) hz]
  simp only [View.readAt_eq_ld, h1.read_unread, h2.read_unread, h3.read_unread, h4.read_unread, h5.read_unread, h6.read_unread, h8.read_unread, h9.read_unread,
    View.ld_unit_zero (S := S5000x256) hz, View.ld_unit_zero (S := S1x256) hz, View.ld_unit_zero (S := S256x128) hz, View.ld_unit_zero (S := S1x128) hz]

/-- At a later point the sum-of-squares accumulator is what it held plus the block's column sums of squares. -/
theorem out_B_8 (c : Dev nD) (i : grid1.Coords) (a1 : Memref sig .tc .vmem S5000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond1_0 i) (x0 : Vec F S5000x256 .f32) (x1 : Vec F S1x256 .f32) (x2 : Vec F S1x256 .f32) (x3 : Vec F S1x256 .f32) (x4 : Vec F S1x256 .f32) (x5 : Vec F S256x128 .f32) (xo7 xo8 : Vec F S1x128 .f32) :
    out1_B_8 c i a1 h1 a2 h2 a3 h3 a4 h4 a5 h5 a6 h6 a7 h7 a8 h8 a9 h9 hc x0 x1 x2 x3 x4 x5 xo7 xo8 = k1_pay2 (k1_pay5 x0 x1 x2 x3 x4 x5) xo8 := by
  unfold out1_B_8
  rw [View.read_writes_eq_canon _ _ _ (cover1_B_8 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero (S := S1x128) hz]
  simp only [View.readAt_eq_ld, h1.read_unread, h2.read_unread, h3.read_unread, h4.read_unread, h5.read_unread, h6.read_unread, h8.read_unread, h9.read_unread,
    View.ld_unit_zero (S := S5000x256) hz, View.ld_unit_zero (S := S1x256) hz, View.ld_unit_zero (S := S256x128) hz, View.ld_unit_zero (S := S1x128) hz]

/-- At the first point the product block is the one store's payload. -/
theorem out_A_6 (c : Dev nD) (i : grid1.Coords) (a1 : Memref sig .tc .vmem S5000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond1_0 i) (x0 : Vec F S5000x256 .f32) (x1 : Vec F S1x256 .f32) (x2 : Vec F S1x256 .f32) (x3 : Vec F S1x256 .f32) (x4 : Vec F S1x256 .f32) (x5 : Vec F S256x128 .f32) :
    out1_A_6 c i a1 h1 a2 h2 a3 h3 a4 h4 a5 h5 a6 h6 a7 h7 a8 h8 a9 h9 hc x0 x1 x2 x3 x4 x5 = k1_pay5 x0 x1 x2 x3 x4 x5 := by
  unfold out1_A_6
  rw [View.read_writes_eq_canon _ _ _ (cover1_A_6 c i a1 h1 a2 h2 a3 h3 a4 h4 a5 h5 a6 h6 a7 h7 a8 h8 a9 h9 hc x0 x1 x2 x3 x4 x5)]
  unfold kernelRun1_A
  dsimp only
  sl_unfold_words
  rw [View.canon_unit_zero (S := S5000x128) hz]
  simp only [View.readAt_eq_ld, h1.read_unread, h2.read_unread, h3.read_unread, h4.read_unread, h5.read_unread, h6.read_unread,
    View.ld_unit_zero (S := S5000x256) hz, View.ld_unit_zero (S := S1x256) hz, View.ld_unit_zero (S := S256x128) hz]

/-- At the first point the sum accumulator is zeroed, read back, and left at zero plus the block's column sums. -/
theorem out_A_7 (c : Dev nD) (i : grid1.Coords) (a1 : Memref sig .tc .vmem S5000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond1_0 i) (x0 : Vec F S5000x256 .f32) (x1 : Vec F S1x256 .f32) (x2 : Vec F S1x256 .f32) (x3 : Vec F S1x256 .f32) (x4 : Vec F S1x256 .f32) (x5 : Vec F S256x128 .f32) :
    out1_A_7 c i a1 h1 a2 h2 a3 h3 a4 h4 a5 h5 a6 h6 a7 h7 a8 h8 a9 h9 hc x0 x1 x2 x3 x4 x5 = k1_pay1 (k1_pay6 k1_pay3) (k1_pay7 x0 x1 x2 x3 x4 x5) := by
  unfold out1_A_7
  rw [View.read_writes_eq_canon _ _ _ (cover1_A_7 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x256) hz, View.ld_unit_zero (S := S1x256) hz, View.ld_unit_zero (S := S256x128) hz]

/-- At the first point the sum-of-squares accumulator is zeroed, read back, and left at zero plus the block's
    column sums of squares. -/
theorem out_A_8 (c : Dev nD) (i : grid1.Coords) (a1 : Memref sig .tc .vmem S5000x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (a6 : Memref sig .tc .vmem S256x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond1_0 i) (x0 : Vec F S5000x256 .f32) (x1 : Vec F S1x256 .f32) (x2 : Vec F S1x256 .f32) (x3 : Vec F S1x256 .f32) (x4 : Vec F S1x256 .f32) (x5 : Vec F S256x128 .f32) :
    out1_A_8 c i a1 h1 a2 h2 a3 h3 a4 h4 a5 h5 a6 h6 a7 h7 a8 h8 a9 h9 hc x0 x1 x2 x3 x4 x5 = k1_pay2 (k1_pay5 x0 x1 x2 x3 x4 x5) k1_pay4 := by
  unfold out1_A_8
  rw [View.read_writes_eq_canon _ _ _ (cover1_A_8 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x256) hz, View.ld_unit_zero (S := S1x256) hz, View.ld_unit_zero (S := S256x128) hz]

end Pieces

/-! ## The payloads at an index, over the extended reals -/

section Payloads

/-- Row 0 of the left operand's index is the output's row. -/
theorem lhs_axis0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- Its column is the contraction position. -/
theorem lhs_axis1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row is the contraction position. -/
theorem rhs_axis0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- Its column is the output's column. -/
theorem rhs_axis1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A one-row operand laid along the 5000 rows reads, at row r and column q, its entry at column q. -/
theorem bcast_row (x : FVec Ideal S1x256 .f32) (r : Fin 5000) (q : Fin 256) :
    broadcastTo S5000x256 x broadcasts_S1x256_S5000x256 (ix2 r q) = x (ix2 0 q) :=
  broadcastTo_apply x broadcasts_S1x256_S5000x256 (ix2 r q) (ix2 0 q) (by
    intro a
    match a with
    | ⟨0, _⟩ => rfl
    | ⟨1, _⟩ => rfl)

/-- The product block at row r and column j: the sum over the 256 inner positions of the normalised, scaled, shifted
    and clamped entry of the row block times the weight. -/
theorem pay5_apply (x0 : Layer.Arr2 5000 256) (x1 x2 x3 x4 : Layer.Arr2 1 256) (x5 : Layer.Arr2 256 128)
    (r : Fin 5000) (j : Fin 128) :
    k1_pay5 (F := Ideal) x0 x1 x2 x3 x4 x5 (ix2 r j)
      = ∑ q : Fin 256, Layer.bnRelu x0 (row1 x1) (row1 x2) (row1 x3) (row1 x4) (ix2 r q) * x5 (ix2 q j) := by
  unfold k1_pay5
  simp only [matmul]
  rw [Ideal.matmul_constant_zero_apply, ← Equiv.sum_comp (contrEquiv1 dot_S5000x256_S256x128_S5000x128_1_0_0_1_n_n 256 rfl rfl).symm]
  refine Finset.sum_congr rfl fun q _ => ?_
  have hq := contrEquiv1_symm_val dot_S5000x256_S256x128_S5000x128_1_0_0_1_n_n 256 rfl rfl q
  have el : dot_S5000x256_S256x128_S5000x128_1_0_0_1_n_n.lhsIdx (ix2 r j) ((contrEquiv1 dot_S5000x256_S256x128_S5000x128_1_0_0_1_n_n 256 rfl rfl).symm q) = ix2 r q := funext fun a => Fin.ext (by
    match a with
    | ⟨0, _⟩ => exact lhs_axis0 _ _
    | ⟨1, _⟩ => exact (lhs_axis1 _ _).trans hq)
  have er : dot_S5000x256_S256x128_S5000x128_1_0_0_1_n_n.rhsIdx (ix2 r j) ((contrEquiv1 dot_S5000x256_S256x128_S5000x128_1_0_0_1_n_n 256 rfl rfl).symm q) = ix2 q j := funext fun a => Fin.ext (by
    match a with
    | ⟨0, _⟩ => exact (rhs_axis0 _ _).trans hq
    | ⟨1, _⟩ => exact rhs_axis1 _ _)
  rw [el, er]
  simp only [shapeCast_self, truncf_apply, maximumf_apply, addf_apply, mulf_apply, subf_apply, bcast_row, broadcast_apply]
  refine congrArg (· * x5 (ix2 q j)) ?_
  show max _ (Ideal.ofBits .f32 0x00000000#32) = max _ 0
  rw [Ideal.ofBits_zero_f32]
  rfl

/-- A length-128 vector laid as one row reads, at column j, its entry j. -/
theorem row_cast (v : FVec Ideal S128 .f32) (j : Fin 128) :
    shapeCast S1x128 v shapeCasts_S128_S1x128 (ix2 0 j) = v (ix1 j) :=
  shapeCast_apply v shapeCasts_S128_S1x128 (ix2 0 j) (ix1 j) (by
    rw [Shape.rowMajor_val_two, Shape.rowMajor_val_one]; show j.val = 0 * 128 + j.val; omega)

/-- Summing a 5000 × 128 block over its rows: at column j, the sum over the rows of the entries in column j. -/
theorem colsum_apply (y : FVec Ideal S5000x128 .f32) (hacc : (0x00000000#32 : BitVec 32) = 0x00000000#32) (j : Fin 128) :
    multiReduction (F := Ideal) .add [0] S128 y 0x00000000#32 reduces_S5000x128_S128 (.inl rfl) hacc (ix1 j)
      = ∑ r : Fin 5000, y (ix2 r j) := by
  refine (Ideal.multiReduction_add_single y 0x00000000#32 reduces_S5000x128_S128 (.inl rfl) hacc (ix1 j)).trans ?_
  refine Finset.sum_congr rfl fun r _ => congrArg y ?_
  exact funext fun a => Fin.ext (by
    match a with
    | ⟨0, _⟩ => rfl
    | ⟨1, _⟩ => rfl)

/-- The block's column sums, as sums of the product block's entries. -/
theorem pay7_apply (x0 : Layer.Arr2 5000 256) (x1 x2 x3 x4 : Layer.Arr2 1 256) (x5 : Layer.Arr2 256 128) (j : Fin 128) :
    k1_pay7 (F := Ideal) x0 x1 x2 x3 x4 x5 (ix1 j) = ∑ r : Fin 5000, k1_pay5 (F := Ideal) x0 x1 x2 x3 x4 x5 (ix2 r j) := by
  unfold k1_pay7
  exact colsum_apply (k1_pay5 (F := Ideal) x0 x1 x2 x3 x4 x5) rfl j

/-- The sum accumulator's update at column j: what it held plus the block's column sum. -/
theorem pay1_apply (v33 : FVec Ideal S1x128 .f32) (v34 : FVec Ideal S128 .f32) (j : Fin 128) :
    k1_pay1 (F := Ideal) v33 v34 (ix2 0 j) = v33 (ix2 0 j) + v34 (ix1 j) := by
  unfold k1_pay1
  show v33 (ix2 0 j) + shapeCast S1x128 v34 shapeCasts_S128_S1x128 (ix2 0 j) = _
  rw [row_cast]

/-- The sum-of-squares accumulator's update at column j: what it held plus the block's column sum of squares. -/
theorem pay2_apply (v30 : FVec Ideal S5000x128 .f32) (v38 : FVec Ideal S1x128 .f32) (j : Fin 128) :
    k1_pay2 (F := Ideal) v30 v38 (ix2 0 j) = v38 (ix2 0 j) + ∑ r : Fin 5000, v30 (ix2 r j) * v30 (ix2 r j) := by
  unfold k1_pay2
  simp only [shapeCast_self]
  show v38 (ix2 0 j) + shapeCast S1x128 (multiReduction (F := Ideal) .add [0] S128 (mulf v30 v30) 0x00000000#32 reduces_S5000x128_S128 (.inl rfl) rfl) shapeCasts_S128_S1x128 (ix2 0 j) = _
  rw [row_cast, colsum_apply (mulf v30 v30) rfl j]
  rfl

/-- The accumulator read back before its update is unchanged by the identity cast. -/
theorem pay6_eq (v : FVec Ideal S1x128 .f32) : k1_pay6 (F := Ideal) v = v := by
  unfold k1_pay6
  exact shapeCast_self v _

/-- The zero rows the first point stores. -/
theorem pay3_apply (i : S1x128.Idx) : k1_pay3 (F := Ideal) i = 0 := by
  show Ideal.ofBits .f32 0x00000000#32 = 0
  exact Ideal.ofBits_zero_f32
theorem pay4_apply (i : S1x128.Idx) : k1_pay4 (F := Ideal) i = 0 := by
  show Ideal.ofBits .f32 0x00000000#32 = 0
  exact Ideal.ofBits_zero_f32

end Payloads

/-! ## The blocks a point reads, as entries of the arrays -/

section Blocks

/-- The block numbers of every window at a point, decided over the twenty points: the row-blocked windows (the
    first operand and the product) are at block t, every one-block window at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The blocks at a point, at their literal shapes. -/
abbrev blk0 (c : Dev nD) (t : Fin cfg1.N) : Layer.Arr2 5000 256 := iblk1 (F := Ideal) V c 0 t
abbrev blk1 (c : Dev nD) (t : Fin cfg1.N) : Layer.Arr2 1 256 := iblk1 (F := Ideal) V c 1 t
abbrev blk2 (c : Dev nD) (t : Fin cfg1.N) : Layer.Arr2 1 256 := iblk1 (F := Ideal) V c 2 t
abbrev blk3 (c : Dev nD) (t : Fin cfg1.N) : Layer.Arr2 1 256 := iblk1 (F := Ideal) V c 3 t
abbrev blk4 (c : Dev nD) (t : Fin cfg1.N) : Layer.Arr2 1 256 := iblk1 (F := Ideal) V c 4 t
abbrev blk5 (c : Dev nD) (t : Fin cfg1.N) : Layer.Arr2 256 128 := iblk1 (F := Ideal) V c 5 t

/-- The arrays the region reads, at their literal shapes. -/
abbrev arr0 (c : Dev nD) : Layer.Arr2 100000 256 := V c main_v38_0
abbrev arr1 (c : Dev nD) : Layer.Arr2 1 256 := V c main_v40
abbrev arr2 (c : Dev nD) : Layer.Arr2 1 256 := V c main_v46
abbrev arr3 (c : Dev nD) : Layer.Arr2 1 256 := V c main_v34
abbrev arr4 (c : Dev nD) : Layer.Arr2 1 256 := V c main_v35
abbrev arr5 (c : Dev nD) : Layer.Arr2 256 128 := V c main_v33

/-- Row r of the block of the first operand at point t is row 5000·t + r of the array. -/
theorem blk0_apply (c : Dev nD) (t : Fin cfg1.N) (ht : t.val < 20) (r : Fin 5000) (q : Fin 256) :
    blk0 V c t (ix2 r q) = arr0 V c (ix2 (Layer.blockRow t.val ht r) q) := by
  obtain ⟨e0, e1, -⟩ := idx_facts t
  show iblk1 (F := Ideal) V c 0 t (ix2 r q) = V c main_v38_0 (ix2 (Layer.blockRow t.val ht r) q)
  unfold iblk1
  rw [View.read_apply]
  show V c main_v38_0 (((cfg1.win 0).blk t).view.emb (ix2 r q)) = V c main_v38_0 (ix2 (Layer.blockRow t.val ht r) q)
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 256 + 1 * q.val = q.val; rw [e1]; omega

/-- The one block of the mean row is the array. -/
theorem blk1_eq (c : Dev nD) (t : Fin cfg1.N) : blk1 V c t = arr1 V c := by
  obtain ⟨-, -, e0, e1, -⟩ := idx_facts t
  funext y
  show iblk1 (F := Ideal) V c 1 t y = V c main_v40 y
  unfold iblk1
  rw [View.read_apply]
  show V c main_v40 (((cfg1.win 1).blk t).view.emb y) = V c main_v40 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

/-- The one block of the variance row is the array. -/
theorem blk2_eq (c : Dev nD) (t : Fin cfg1.N) : blk2 V c t = arr2 V c := by
  obtain ⟨-, -, -, -, e0, e1, -⟩ := idx_facts t
  funext y
  show iblk1 (F := Ideal) V c 2 t y = V c main_v46 y
  unfold iblk1
  rw [View.read_apply]
  show V c main_v46 (((cfg1.win 2).blk t).view.emb y) = V c main_v46 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- The one block of the scale row is the array. -/
theorem blk3_eq (c : Dev nD) (t : Fin cfg1.N) : blk3 V c t = arr3 V c := by
  obtain ⟨-, -, -, -, -, -, e0, e1, -⟩ := idx_facts t
  funext y
  show iblk1 (F := Ideal) V c 3 t y = V c main_v34 y
  unfold iblk1
  rw [View.read_apply]
  show V c main_v34 (((cfg1.win 3).blk t).view.emb y) = V c main_v34 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- The one block of the shift row is the array. -/
theorem blk4_eq (c : Dev nD) (t : Fin cfg1.N) : blk4 V c t = arr4 V c := by
  obtain ⟨-, -, -, -, -, -, -, -, e0, e1, -⟩ := idx_facts t
  funext y
  show iblk1 (F := Ideal) V c 4 t y = V c main_v35 y
  unfold iblk1
  rw [View.read_apply]
  show V c main_v35 (((cfg1.win 4).blk t).view.emb y) = V c main_v35 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- The one block of the weights is the array. -/
theorem blk5_eq (c : Dev nD) (t : Fin cfg1.N) : blk5 V c t = arr5 V c := by
  obtain ⟨-, -, -, -, -, -, -, -, -, -, e0, e1, -⟩ := idx_facts t
  funext y
  show iblk1 (F := Ideal) V c 5 t y = V c main_v33 y
  unfold iblk1
  rw [View.read_apply]
  show V c main_v33 (((cfg1.win 5).blk t).view.emb y) = V c main_v33 y
  congr 1
  funext a
  apply Fin.ext
  match a with
  | ⟨0, _⟩ => show win1_5.index t (0 : Fin 2) * 256 + 1 * (y 0).val = (y 0).val; rw [e0]; omega
  | ⟨1, _⟩ => show win1_5.index t (1 : Fin 2) * 128 + 1 * (y 1).val = (y 1).val; rw [e1]; omega

end Blocks

/-! ## One point's contribution -/

section Point

/-- The accumulators' updates at column j, over the blocks' product. -/
theorem sumA_apply (x0 : Layer.Arr2 5000 256) (x1 x2 x3 x4 : Layer.Arr2 1 256) (x5 : Layer.Arr2 256 128) (j : Fin 128) :
    k1_pay1 (F := Ideal) (k1_pay6 (k1_pay3 (F := Ideal))) (k1_pay7 x0 x1 x2 x3 x4 x5) (ix2 0 j)
      = 0 + ∑ r : Fin 5000, k1_pay5 (F := Ideal) x0 x1 x2 x3 x4 x5 (ix2 r j) := by
  rw [pay1_apply, pay6_eq, pay3_apply, pay7_apply]
theorem sumB_apply (x0 : Layer.Arr2 5000 256) (x1 x2 x3 x4 : Layer.Arr2 1 256) (x5 : Layer.Arr2 256 128) (xo : Layer.Arr2 1 128) (j : Fin 128) :
    k1_pay1 (F := Ideal) (k1_pay6 xo) (k1_pay7 x0 x1 x2 x3 x4 x5) (ix2 0 j)
      = xo (ix2 0 j) + ∑ r : Fin 5000, k1_pay5 (F := Ideal) x0 x1 x2 x3 x4 x5 (ix2 r j) := by
  rw [pay1_apply, pay6_eq, pay7_apply]
theorem sqA_apply (x0 : Layer.Arr2 5000 256) (x1 x2 x3 x4 : Layer.Arr2 1 256) (x5 : Layer.Arr2 256 128) (j : Fin 128) :
    k1_pay2 (F := Ideal) (k1_pay5 x0 x1 x2 x3 x4 x5) (k1_pay4 (F := Ideal)) (ix2 0 j)
      = 0 + ∑ r : Fin 5000, k1_pay5 (F := Ideal) x0 x1 x2 x3 x4 x5 (ix2 r j) * k1_pay5 (F := Ideal) x0 x1 x2 x3 x4 x5 (ix2 r j) := by
  rw [pay2_apply, pay4_apply]
theorem sqB_apply (x0 : Layer.Arr2 5000 256) (x1 x2 x3 x4 : Layer.Arr2 1 256) (x5 : Layer.Arr2 256 128) (xo : Layer.Arr2 1 128) (j : Fin 128) :
    k1_pay2 (F := Ideal) (k1_pay5 x0 x1 x2 x3 x4 x5) xo (ix2 0 j)
      = xo (ix2 0 j) + ∑ r : Fin 5000, k1_pay5 (F := Ideal) x0 x1 x2 x3 x4 x5 (ix2 r j) * k1_pay5 (F := Ideal) x0 x1 x2 x3 x4 x5 (ix2 r j) := by
  rw [pay2_apply]

/-- The product block of point t at row r and column j is the product's entry at row 5000·t + r: the block of the
    first operand is those rows of the array, and the one-row operands and the weights are read whole. -/
theorem pay5_point (c : Dev nD) (t : Fin cfg1.N) (ht : t.val < 20) (r : Fin 5000) (j : Fin 128) :
    k1_pay5 (F := Ideal) (blk0 V c t) (blk1 V c t) (blk2 V c t) (blk3 V c t) (blk4 V c t) (blk5 V c t) (ix2 r j) = prod V c (ix2 (Layer.blockRow t.val ht r) j) := by
  refine (pay5_apply (blk0 V c t) (blk1 V c t) (blk2 V c t) (blk3 V c t) (blk4 V c t) (blk5 V c t) r j).trans ?_
  rw [blk1_eq, blk2_eq, blk3_eq, blk4_eq, blk5_eq]
  show _ = ∑ q : Fin 256, act V c (ix2 (Layer.blockRow t.val ht r) q) * arr5 V c (ix2 q j)
  refine Finset.sum_congr rfl fun q _ => ?_
  exact congrArg (fun z : EReal => max ((z - row1 (arr1 V c) q) * Ideal.rsqrt (row1 (arr2 V c) q + Layer.varOffset)
    * row1 (arr3 V c) q + row1 (arr4 V c) q) 0 * arr5 V c (ix2 q j)) (blk0_apply V c t ht r q)

/-- What every point leaves in the product's buffer: the product block of its blocks. -/
theorem out6_eq (c : Dev nD) (t : Fin cfg1.N) :
    (outsAt1 (F := Ideal) V c t.val t.isLt).1 = k1_pay5 (F := Ideal) (blk0 V c t) (blk1 V c t) (blk2 V c t) (blk3 V c t) (blk4 V c t) (blk5 V c t) := by
  by_cases h0 : t.val % 20 = 0
  · rw [outsAt1_A V c t h0]
    dsimp only
    exact out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)
  · rw [outsAt1_B V c t h0]
    dsimp only
    exact out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t)
      (outsAt1 V c (t.val - 1) (Nat.lt_of_le_of_lt (Nat.sub_le _ _) t.isLt)).2.1 (outsAt1 V c (t.val - 1) (Nat.lt_of_le_of_lt (Nat.sub_le _ _) t.isLt)).2.2

end Point

/-! ## The accumulators after each point -/

section Accumulation

/-- Column j of the product as a function of the row, and its square. -/
abbrev col (c : Dev nD) (j : Fin 128) : Fin 100000 → EReal := fun R => prod V c (ix2 R j)
abbrev colSq (c : Dev nD) (j : Fin 128) : Fin 100000 → EReal := fun R => prod V c (ix2 R j) * prod V c (ix2 R j)

/-- After point n the sum accumulator holds, at column j, the sum of the product's column j over the first 5000·(n+1) rows: the first point zeroes it and adds block 0, each later point adds its block. -/
theorem acc7 (c : Dev nD) : ∀ (n : ℕ) (h : n < cfg1.N) (j : Fin 128),
    ((outsAt1 (F := Ideal) V c n h).2.1 : Layer.Arr2 1 128) (ix2 0 j) = Layer.prefixSum (col V c j) (n + 1)
  | 0, h, j => by
    rw [outsAt1_A V c ⟨0, h⟩ rfl]
    dsimp only
    refine (congrFun (out_A_7 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩)) (ix2 0 j)).trans ?_
    refine (sumA_apply (blk0 V c ⟨0, h⟩) (blk1 V c ⟨0, h⟩) (blk2 V c ⟨0, h⟩) (blk3 V c ⟨0, h⟩) (blk4 V c ⟨0, h⟩) (blk5 V c ⟨0, h⟩) j).trans ?_
    rw [Layer.prefixSum_succ (col V c j) 0 (by omega), Layer.prefixSum_zero]
    refine congrArg (0 + ·) (Finset.sum_congr rfl fun r _ => ?_)
    exact pay5_point V c ⟨0, h⟩ (by show 0 < 20; omega) r j
  | n + 1, h, j => by
    have hN : n + 1 < 20 := lt_of_lt_of_eq h N_1
    have hB : ¬(⟨n + 1, h⟩ : Fin cfg1.N).val % 20 = 0 := by dsimp only; omega
    rw [outsAt1_B V c ⟨n + 1, h⟩ hB]
    dsimp only
    refine (congrFun (out_B_7 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩)
      (outsAt1 V c n (Nat.lt_of_succ_lt h)).2.1 (outsAt1 V c n (Nat.lt_of_succ_lt h)).2.2) (ix2 0 j)).trans ?_
    refine (sumB_apply (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) (outsAt1 V c n (Nat.lt_of_succ_lt h)).2.1 j).trans ?_
    rw [acc7 c n (Nat.lt_of_succ_lt h) j, Layer.prefixSum_succ (col V c j) (n + 1) (by omega)]
    refine congrArg (_ + ·) (Finset.sum_congr rfl fun r _ => ?_)
    exact pay5_point V c ⟨n + 1, h⟩ hN r j

/-- After point n the sum-of-squares accumulator holds, at column j, the sum of the squares of the product's column j over the first 5000·(n+1) rows. -/
theorem acc8 (c : Dev nD) : ∀ (n : ℕ) (h : n < cfg1.N) (j : Fin 128),
    ((outsAt1 (F := Ideal) V c n h).2.2 : Layer.Arr2 1 128) (ix2 0 j) = Layer.prefixSum (colSq V c j) (n + 1)
  | 0, h, j => by
    rw [outsAt1_A V c ⟨0, h⟩ rfl]
    dsimp only
    refine (congrFun (out_A_8 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩)) (ix2 0 j)).trans ?_
    refine (sqA_apply (blk0 V c ⟨0, h⟩) (blk1 V c ⟨0, h⟩) (blk2 V c ⟨0, h⟩) (blk3 V c ⟨0, h⟩) (blk4 V c ⟨0, h⟩) (blk5 V c ⟨0, h⟩) j).trans ?_
    rw [Layer.prefixSum_succ (colSq V c j) 0 (by omega), Layer.prefixSum_zero]
    refine congrArg (0 + ·) (Finset.sum_congr rfl fun r _ => ?_)
    exact congrArg (fun z : EReal => z * z) (pay5_point V c ⟨0, h⟩ (by show 0 < 20; omega) r j)
  | n + 1, h, j => by
    have hN : n + 1 < 20 := lt_of_lt_of_eq h N_1
    have hB : ¬(⟨n + 1, h⟩ : Fin cfg1.N).val % 20 = 0 := by dsimp only; omega
    rw [outsAt1_B V c ⟨n + 1, h⟩ hB]
    dsimp only
    refine (congrFun (out_B_8 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩)
      (outsAt1 V c n (Nat.lt_of_succ_lt h)).2.1 (outsAt1 V c n (Nat.lt_of_succ_lt h)).2.2) (ix2 0 j)).trans ?_
    refine (sqB_apply (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) (outsAt1 V c n (Nat.lt_of_succ_lt h)).2.2 j).trans ?_
    rw [acc8 c n (Nat.lt_of_succ_lt h) j, Layer.prefixSum_succ (colSq V c j) (n + 1) (by omega)]
    refine congrArg (_ + ·) (Finset.sum_congr rfl fun r _ => ?_)
    exact congrArg (fun z : EReal => z * z) (pay5_point V c ⟨n + 1, h⟩ hN r j)

end Accumulation

/-! ## From the blocks written back to the arrays -/

section Arrays

/-- The product block of point t, entry by entry: row y₀ of the block is row 5000·t + y₀ of the product. -/
theorem blkprod_eq (c : Dev nD) (t : Fin cfg1.N) (ht : t.val < 20) :
    k1_pay5 (F := Ideal) (blk0 V c t) (blk1 V c t) (blk2 V c t) (blk3 V c t) (blk4 V c t) (blk5 V c t) = fun y : S5000x128.Idx => prod V c (ix2 (Layer.blockRow t.val ht (y 0)) (y 1)) := by
  funext y
  obtain ⟨r, j, rfl⟩ : ∃ (r : Fin 5000) (j : Fin 128), y = ix2 r j := ⟨y 0, y 1, eq_ix2 y⟩
  exact pay5_point V c t ht r j

/-- What point t writes back to the product array is block t of the product. -/
theorem flushed6_eq (c : Dev nD) (t : Fin cfg1.N) :
    (dat1 (F := Ideal) V c).flushed 6 t = ((cfg1.win 6).blk t).view.read (Elt Ideal) (prod V c) := by
  have ht : t.val < 20 := lt_of_lt_of_eq t.isLt N_1
  obtain ⟨-, -, -, -, -, -, -, -, -, -, -, -, e0, e1, -⟩ := idx_facts t
  show (cfg1.win 6).cut (grid1.coords t) ((dat1 V c).after 6 t) = _
  rw [after1_6, out6_eq, blkprod_eq V c t ht]
  funext y
  show prod V c (ix2 (Layer.blockRow t.val ht (y 0)) (y 1)) = prod V c (((cfg1.win 6).blk t).view.emb y)
  refine congrArg (prod V c) (funext fun a => Fin.ext ?_)
  match a with
  | ⟨0, _⟩ => show 5000 * t.val + (y 0).val = win1_6.index t (0 : Fin 2) * 5000 + 1 * (y 0).val; rw [e0]; omega
  | ⟨1, _⟩ => show (y 1).val = win1_6.index t (1 : Fin 2) * 128 + 1 * (y 1).val; rw [e1]; omega

/-- An index of the product array is in point t's block iff each coordinate is in the block's range on its axis. -/
theorem mem_blk6 (t : Fin cfg1.N) (i : main_v47_0.ty.shape.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v47_0).slice (win1_6.rect t)).set ↔ _
  rw [View.set_slice_whole, Rect.mem_set_unit]
  exact Iff.rfl

/-- An index of the sum row is in point t's block iff each coordinate is in the block's range on its axis. -/
theorem mem_blk7 (t : Fin cfg1.N) (i : main_v47_1.ty.shape.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v47_1).slice (win1_7.rect t)).set ↔ _
  rw [View.set_slice_whole, Rect.mem_set_unit]
  exact Iff.rfl

/-- An index of the sum-of-squares row is in point t's block iff each coordinate is in the block's range on its axis. -/
theorem mem_blk8 (t : Fin cfg1.N) (i : main_v47_2.ty.shape.Idx) :
    i ∈ ((cfg1.win 8).blk t).view.set ↔ ∀ a : Fin 2, win1_8.index t a * S1x128.size a ≤ (i a).val ∧ (i a).val < win1_8.index t a * S1x128.size a + S1x128.size a := by
  show i ∈ ((View.whole main_v47_2).slice (win1_8.rect t)).set ↔ _
  rw [View.set_slice_whole, Rect.mem_set_unit]
  exact Iff.rfl

/-- The product array after the region: row R is in the block of point R / 5000, so the twenty blocks written back
    cover the array. -/
theorem y_final (c : Dev nD) : ((dat1 (F := Ideal) V c).arrAt 6 cfg1.N : Layer.Arr2 100000 128) = prod V c :=
  (dat1 V c).arrAt_eq_of_cover 6 (prod V c) (fun t _ => flushed6_eq V c t) fun i => by
    have hi0 : (i 0).val < 100000 := (i 0).isLt
    have hi1 : (i 1).val < 128 := (i 1).isLt
    obtain ⟨t, ht⟩ : ∃ t : Fin cfg1.N, t.val = (i 0).val / 5000 :=
      ⟨⟨(i 0).val / 5000, by rw [show cfg1.N = 20 from N_1]; omega⟩, rfl⟩
    obtain ⟨-, -, -, -, -, -, -, -, -, -, -, -, e0, e1, -⟩ := idx_facts t
    refine ⟨t, flush1_6 t, ?_⟩
    rw [mem_blk6]
    intro a
    match a with
    | ⟨0, _⟩ =>
      show win1_6.index t (0 : Fin 2) * 5000 ≤ (i 0).val ∧ (i 0).val < win1_6.index t (0 : Fin 2) * 5000 + 5000
      rw [e0]; omega
    | ⟨1, _⟩ =>
      show win1_6.index t (1 : Fin 2) * 128 ≤ (i 1).val ∧ (i 1).val < win1_6.index t (1 : Fin 2) * 128 + 128
      rw [e1]; omega

/-- The rows the two accumulators end at: the column sums, and the column sums of squares, of the product. -/
abbrev sumRow (c : Dev nD) : Layer.Arr2 1 128 := fun j => Layer.colSum (prod V c) (j 1)
abbrev sumsqRow (c : Dev nD) : Layer.Arr2 1 128 := fun j => Layer.colSumSq (prod V c) (j 1)

/-- A one-row buffer that agrees at every column with a one-row array G is what the sum window's block reads
    off G: the window's one block is the whole array. -/
theorem row7_read (t : Fin cfg1.N) (G X : Layer.Arr2 1 128) (h : ∀ j : Fin 128, X (ix2 0 j) = G (ix2 0 j)) :
    (cfg1.win 7).cut (grid1.coords t) X = ((cfg1.win 7).blk t).view.read (Elt Ideal) G := by
  obtain ⟨-, -, -, -, -, -, -, -, -, -, -, -, -, -, e0, e1, -⟩ := idx_facts t
  refine funext fun (y : S1x128.Idx) => ?_
  obtain ⟨z, j, rfl⟩ : ∃ (z : Fin 1) (j : Fin 128), y = ix2 z j := ⟨y 0, y 1, eq_ix2 y⟩
  obtain rfl : z = 0 := Subsingleton.elim _ _
  show X (ix2 0 j) = G (((cfg1.win 7).blk t).view.emb (ix2 0 j))
  rw [h j]
  refine congrArg G (funext fun a => Fin.ext ?_)
  match a with
  | ⟨0, _⟩ => show 0 = win1_7.index t (0 : Fin 2) * 1 + 1 * 0; rw [e0]
  | ⟨1, _⟩ => show j.val = win1_7.index t (1 : Fin 2) * 128 + 1 * j.val; rw [e1]; omega

/-- A one-row buffer that agrees at every column with a one-row array G is what the sum-of-squares window's block reads
    off G: the window's one block is the whole array. -/
theorem row8_read (t : Fin cfg1.N) (G X : Layer.Arr2 1 128) (h : ∀ j : Fin 128, X (ix2 0 j) = G (ix2 0 j)) :
    (cfg1.win 8).cut (grid1.coords t) X = ((cfg1.win 8).blk t).view.read (Elt Ideal) G := by
  obtain ⟨-, -, -, -, -, -, -, -, -, -, -, -, -, -, -, -, e0, e1⟩ := idx_facts t
  refine funext fun (y : S1x128.Idx) => ?_
  obtain ⟨z, j, rfl⟩ : ∃ (z : Fin 1) (j : Fin 128), y = ix2 z j := ⟨y 0, y 1, eq_ix2 y⟩
  obtain rfl : z = 0 := Subsingleton.elim _ _
  show X (ix2 0 j) = G (((cfg1.win 8).blk t).view.emb (ix2 0 j))
  rw [h j]
  refine congrArg G (funext fun a => Fin.ext ?_)
  match a with
  | ⟨0, _⟩ => show 0 = win1_8.index t (0 : Fin 2) * 1 + 1 * 0; rw [e0]
  | ⟨1, _⟩ => show j.val = win1_8.index t (1 : Fin 2) * 128 + 1 * j.val; rw [e1]; omega

/-- The one write-back of the sum accumulator, after the last point, writes the column sums over all 100000 rows: twenty
    blocks of 5000 rows are all the rows. -/
theorem flushed7_eq (c : Dev nD) (t : Fin cfg1.N) (hf : (cfg1.win 7).flush t = true) :
    (dat1 (F := Ideal) V c).flushed 7 t = ((cfg1.win 7).blk t).view.read (Elt Ideal) (sumRow V c) := by
  have hN : t.val < 20 := lt_of_lt_of_eq t.isLt N_1
  have h19 : t.val = 19 := by have := (flush1_7 t).mp hf; omega
  show (cfg1.win 7).cut (grid1.coords t) ((dat1 V c).after 7 t) = _
  rw [after1_7]
  refine row7_read t (sumRow V c) (outsAt1 V c t.val t.isLt).2.1 fun j => ?_
  rw [acc7 V c t.val t.isLt j, h19, Layer.prefixSum_full]
  rfl

/-- The one write-back of the sum-of-squares accumulator, after the last point, writes the column sums of squares over all 100000 rows: twenty
    blocks of 5000 rows are all the rows. -/
theorem flushed8_eq (c : Dev nD) (t : Fin cfg1.N) (hf : (cfg1.win 8).flush t = true) :
    (dat1 (F := Ideal) V c).flushed 8 t = ((cfg1.win 8).blk t).view.read (Elt Ideal) (sumsqRow V c) := by
  have hN : t.val < 20 := lt_of_lt_of_eq t.isLt N_1
  have h19 : t.val = 19 := by have := (flush1_8 t).mp hf; omega
  show (cfg1.win 8).cut (grid1.coords t) ((dat1 V c).after 8 t) = _
  rw [after1_8]
  refine row8_read t (sumsqRow V c) (outsAt1 V c t.val t.isLt).2.2 fun j => ?_
  rw [acc8 V c t.val t.isLt j, h19, Layer.prefixSum_full]
  rfl

/-- The sum accumulator after the region: the column sums over all rows. -/
theorem sum_final (c : Dev nD) :
    ((dat1 (F := Ideal) V c).arrAt 7 cfg1.N : Layer.Arr2 1 128) = fun j => Layer.colSum (prod V c) (j 1) :=
  (dat1 V c).arrAt_eq_of_cover 7 (sumRow V c) (flushed7_eq V c) fun i => by
    have hi0 : (i 0).val < 1 := (i 0).isLt
    have hi1 : (i 1).val < 128 := (i 1).isLt
    obtain ⟨t, ht⟩ : ∃ t : Fin cfg1.N, t.val = 19 := ⟨⟨19, by rw [show cfg1.N = 20 from N_1]; omega⟩, rfl⟩
    obtain ⟨-, -, -, -, -, -, -, -, -, -, -, -, -, -, e0, e1, -⟩ := idx_facts t
    refine ⟨t, (flush1_7 t).mpr (by rw [ht]), ?_⟩
    rw [mem_blk7]
    intro a
    match a with
    | ⟨0, _⟩ =>
      show win1_7.index t (0 : Fin 2) * 1 ≤ (i 0).val ∧ (i 0).val < win1_7.index t (0 : Fin 2) * 1 + 1
      rw [e0]; omega
    | ⟨1, _⟩ =>
      show win1_7.index t (1 : Fin 2) * 128 ≤ (i 1).val ∧ (i 1).val < win1_7.index t (1 : Fin 2) * 128 + 128
      rw [e1]; omega

/-- The sum-of-squares accumulator after the region. -/
theorem sumsq_final (c : Dev nD) :
    ((dat1 (F := Ideal) V c).arrAt 8 cfg1.N : Layer.Arr2 1 128) = fun j => Layer.colSumSq (prod V c) (j 1) :=
  (dat1 V c).arrAt_eq_of_cover 8 (sumsqRow V c) (flushed8_eq V c) fun i => by
    have hi0 : (i 0).val < 1 := (i 0).isLt
    have hi1 : (i 1).val < 128 := (i 1).isLt
    obtain ⟨t, ht⟩ : ∃ t : Fin cfg1.N, t.val = 19 := ⟨⟨19, by rw [show cfg1.N = 20 from N_1]; omega⟩, rfl⟩
    obtain ⟨-, -, -, -, -, -, -, -, -, -, -, -, -, -, -, -, e0, e1⟩ := idx_facts t
    refine ⟨t, (flush1_8 t).mpr (by rw [ht]), ?_⟩
    rw [mem_blk8]
    intro a
    match a with
    | ⟨0, _⟩ =>
      show win1_8.index t (0 : Fin 2) * 1 ≤ (i 0).val ∧ (i 0).val < win1_8.index t (0 : Fin 2) * 1 + 1
      rw [e0]; omega
    | ⟨1, _⟩ =>
      show win1_8.index t (1 : Fin 2) * 128 ≤ (i 1).val ∧ (i 1).val < win1_8.index t (1 : Fin 2) * 128 + 128
      rw [e1]; omega

end Arrays

end Cert.KernelIdeal.Region1

end
-- ==== Proof.Region2.lean ====
/-
  Region 2: twenty grid points, each normalising a block of 5000 rows of the second product with the second stage's
  column means and variances, scaling, shifting, taking the positive part and storing the block. The blocks tile the
  result, so the result array is the normalisation of the whole operand, entry by entry.
-/
import proofs.«143247_j50869592655513_1_alg».proof.Proof.Gen.KernelIdeal.Frame
import proofs.«143247_j50869592655513_1_alg».proof.Proof.Spec
import proofs.«143247_j50869592655513_1_alg».proof.Proof.Tiles
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- A one-row array read as a function of the column. -/
abbrev row1 {m : Nat} (x : Layer.Arr2 1 m) : Fin m → EReal := fun j => x (ix2 0 j)

/-- The zero offsets of a whole-block access, however spelt. -/
theorem hz : (![0, 0] : Fin 2 → Nat) = fun _ => 0 := funext fun a => by fin_cases a <;> rfl

/-- A one-row operand broadcast over the 5000 rows, read at row r, column j: the operand's entry at column j. -/
theorem bcast_row (x : FVec Ideal S1x128 .f32) (r : Fin 5000) (j : Fin 128) :
    broadcastTo S5000x128 x broadcasts_S1x128_S5000x128 (ix2 r j) = x (ix2 0 j) := by
  refine broadcastTo_apply x broadcasts_S1x128_S5000x128 (ix2 r j) (ix2 0 j) ?_
  intro a
  match a with
  | ⟨0, _⟩ => rfl
  | ⟨1, _⟩ => rfl

/-- The body's arithmetic at row r, column j of a block: (x − mean) · rsqrt(var + offset) · scale + shift, clamped at zero,
    the four one-row operands read at column j. -/
theorem pay_apply (x0 : Vec Ideal S5000x128 .f32) (x1 x2 x3 x4 : Vec Ideal S1x128 .f32) (r : Fin 5000) (j : Fin 128) :
    k2_pay1 x0 x1 x2 x3 x4 (ix2 r j)
      = max ((x0 (ix2 r j) - x1 (ix2 0 j)) * Ideal.rsqrt (x2 (ix2 0 j) + Layer.varOffset) * x3 (ix2 0 j) + x4 (ix2 0 j)) 0 := by
  unfold k2_pay1
  simp only [shapeCast_self]
  rw [maximumf_apply, addf_apply, mulf_apply, mulf_apply, subf_apply, bcast_row, bcast_row, bcast_row, bcast_row]
  show max _ (Ideal.ofBits .f32 0x00000000#32) = _
  rw [Ideal.ofBits_zero_f32]
  rfl

/-- The five operands as the region finds them, at their literal types: the matrix to normalise and the four one-row
    operands (mean, variance, scale, shift). -/
abbrev xArr (c : Dev nD) : Layer.Arr2 100000 128 := V c main_v47_0
abbrev meanArr (c : Dev nD) : Layer.Arr2 1 128 := V c main_v49
abbrev varArr (c : Dev nD) : Layer.Arr2 1 128 := V c main_v55
abbrev scaleArr (c : Dev nD) : Layer.Arr2 1 128 := V c main_v36
abbrev shiftArr (c : Dev nD) : Layer.Arr2 1 128 := V c main_v37

/-- The whole result: the matrix normalised column by column, scaled, shifted and clamped at zero. -/
abbrev G (c : Dev nD) : Layer.Arr2 100000 128 :=
  Layer.bnRelu (xArr V c) (row1 (meanArr V c)) (row1 (varArr V c)) (row1 (scaleArr V c)) (row1 (shiftArr V c))

/-- The block indices over the twenty points: the matrix and the result move down one block of rows per point and stay
    in column block 0; the one-row operands stay at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t is rows 5000·t … 5000·t + 4999 of the first operand. -/
theorem xblk_apply (c : Dev nD) (t : Fin cfg2.N) (r : Fin 5000) (j : Fin 128) (k : S100000x128.Idx)
    (hk0 : (k 0).val = 5000 * t.val + r.val) (hk1 : (k 1).val = j.val) :
    (iblk2 V c 0 t : Vec Ideal S5000x128 .f32) (ix2 r j) = xArr V c k := by
  obtain ⟨e0, e1, -⟩ := idx_facts t
  unfold iblk2
  rw [View.read_apply]
  show V c main_v47_0 _ = V c main_v47_0 _
  congr 1
  funext a
  apply Fin.ext
  match a with
  | ⟨0, _⟩ => show win2_0.index t (0 : Fin 2) * 5000 + 1 * r.val = (k 0).val; rw [e0, hk0]; omega
  | ⟨1, _⟩ => show win2_0.index t (1 : Fin 2) * 128 + 1 * j.val = (k 1).val; rw [e1, hk1]; omega

/-- The mean window's block is the whole one-row array, at every point. -/
theorem mean_apply (c : Dev nD) (t : Fin cfg2.N) (j : Fin 128) :
    (iblk2 V c 1 t : Vec Ideal S1x128 .f32) (ix2 0 j) = meanArr V c (ix2 0 j) := by
  obtain ⟨-, -, e0, e1, -⟩ := idx_facts t
  unfold iblk2
  rw [View.read_apply]
  show V c main_v49 _ = V c main_v49 _
  congr 1
  funext a
  apply Fin.ext
  match a with
  | ⟨0, _⟩ => show win2_1.index t (0 : Fin 2) * 1 + 1 * 0 = 0; rw [e0]
  | ⟨1, _⟩ => show win2_1.index t (1 : Fin 2) * 128 + 1 * j.val = j.val; rw [e1]; omega

/-- The variance window's block is the whole one-row array, at every point. -/
theorem var_apply (c : Dev nD) (t : Fin cfg2.N) (j : Fin 128) :
    (iblk2 V c 2 t : Vec Ideal S1x128 .f32) (ix2 0 j) = varArr V c (ix2 0 j) := by
  obtain ⟨-, -, -, -, e0, e1, -⟩ := idx_facts t
  unfold iblk2
  rw [View.read_apply]
  show V c main_v55 _ = V c main_v55 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * j.val = j.val; rw [e1]; omega

/-- The scale window's block is the whole one-row array, at every point. -/
theorem scale_apply (c : Dev nD) (t : Fin cfg2.N) (j : Fin 128) :
    (iblk2 V c 3 t : Vec Ideal S1x128 .f32) (ix2 0 j) = scaleArr V c (ix2 0 j) := by
  obtain ⟨-, -, -, -, -, -, e0, e1, -⟩ := idx_facts t
  unfold iblk2
  rw [View.read_apply]
  show V c main_v36 _ = V c main_v36 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * j.val = j.val; rw [e1]; omega

/-- The shift window's block is the whole one-row array, at every point. -/
theorem shift_apply (c : Dev nD) (t : Fin cfg2.N) (j : Fin 128) :
    (iblk2 V c 4 t : Vec Ideal S1x128 .f32) (ix2 0 j) = shiftArr V c (ix2 0 j) := by
  obtain ⟨-, -, -, -, -, -, -, -, e0, e1, -⟩ := idx_facts t
  unfold iblk2
  rw [View.read_apply]
  show V c main_v37 _ = V c main_v37 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * j.val = j.val; rw [e1]; omega

/-- The result read at an index whose column is j. -/
theorem G_apply (c : Dev nD) (i : S100000x128.Idx) (j : Fin 128) (hj : i 1 = j) :
    G V c i = max ((xArr V c i - meanArr V c (ix2 0 j)) * Ideal.rsqrt (varArr V c (ix2 0 j) + Layer.varOffset)
        * scaleArr V c (ix2 0 j) + shiftArr V c (ix2 0 j)) 0 := by
  subst hj
  rfl

/-- What point t's body leaves at row r, column j of its block is the result at row 5000·t + r, column j. -/
theorem body_at (c : Dev nD) (t : Fin cfg2.N) (y : S5000x128.Idx) (i : S100000x128.Idx)
    (h0 : (i 0).val = 5000 * t.val + (y 0).val) (h1 : (i 1).val = (y 1).val) :
    k2_pay1 (iblk2 V c 0 t) (iblk2 V c 1 t) (iblk2 V c 2 t) (iblk2 V c 3 t) (iblk2 V c 4 t) y = G V c i := by
  obtain ⟨r, j, rfl⟩ : ∃ (r : Fin 5000) (j : Fin 128), y = ix2 r j := ⟨y 0, y 1, eq_ix2 y⟩
  refine (pay_apply (iblk2 V c 0 t) (iblk2 V c 1 t) (iblk2 V c 2 t) (iblk2 V c 3 t) (iblk2 V c 4 t) r j).trans ?_
  rw [G_apply V c i j (Fin.ext h1), xblk_apply V c t r j i h0 h1, mean_apply V c t j, var_apply V c t j,
    scale_apply V c t j, shift_apply V c t j]

/-- What point t writes back is block t of the result. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  obtain ⟨-, -, -, -, -, -, -, -, -, -, e0, e1⟩ := idx_facts t
  funext y
  refine body_at V c t y (((cfg2.win 5).blk t).view.emb y) ?_ ?_
  · show win2_5.index t (0 : Fin 2) * 5000 + 1 * (y 0).val = 5000 * t.val + (y 0).val
    rw [e0]; omega
  · show win2_5.index t (1 : Fin 2) * 128 + 1 * (y 1).val = (y 1).val
    rw [e1]; omega

/-- An index of the array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v56).slice (win2_5.rect t)).set ↔ _
  rw [View.set_slice_whole, Rect.mem_set_unit]
  exact Iff.rfl

/-- Row r lies in the block of point r / 5000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, -, -, -, -, e0, e1⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 128 ≤ (i 1).val ∧ (i 1).val < win2_5.index t (1 : Fin 2) * 128 + 128; rw [e1]; omega

/-- The result array after the region: the first operand normalised under the four one-row operands (mean, variance,
    scale, shift), clamped at zero. -/
theorem out_final (c : Dev nD) : ((dat2 (F := Ideal) V c).arrAt 5 cfg2.N : Layer.Arr2 100000 128)
    = Layer.bnRelu (V c main_v47_0) (row1 (V c main_v49)) (row1 (V c main_v55)) (row1 (V c main_v36)) (row1 (V c main_v37)) :=
  (dat2 (F := Ideal) V c).arrAt_eq_of_cover 5 (G V c) (fun t _ => flushed_eq V c t) cover

end Cert.KernelIdeal.Region2

end
-- ==== Proof.ChainValue.lean ====
/-
  The three regions composed: the result buffer after the run is the two-stage network, with the one-pass variance,
  of the array the first host stretch leaves for region 0 and of the six parameter inputs.
  Region 0 multiplies that array by the transposed first weights — the product against the weights' rows — and sums its
  columns; the host turns the sums into means and one-pass variances; region 1 normalises with them, multiplies by the
  transposed second weights and sums again; the host turns those sums into means and variances; region 2 normalises.
-/
import proofs.«143247_j50869592655513_1_alg».proof.Proof.ChainHost
import proofs.«143247_j50869592655513_1_alg».proof.Proof.Region0
import proofs.«143247_j50869592655513_1_alg».proof.Proof.Region1
import proofs.«143247_j50869592655513_1_alg».proof.Proof.Region2

noncomputable section

namespace Cert.KernelIdeal.Chain

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- A product against a transposed matrix is the product against that matrix's rows. -/
theorem mul_transpose {n k j : Nat} (x : Layer.Arr2 n k) (w : Layer.Arr2 j k) : Layer.mul x (Layer.transpose w) = Layer.mulT x w := rfl

/-- The array region 0 reads as its rows. -/
abbrev h0 (c : Dev nD) : Layer.Arr2 100000 128 := V1 m ρ c main_v31

/-- The first product. -/
abbrev y1 (c : Dev nD) : Layer.Arr2 100000 256 := Layer.mulT (h0 m ρ c) (m ((c : Thread nD τ).loc main_arg4))
/-- The first stage's output. -/
abbrev a1 (c : Dev nD) : Layer.Arr2 100000 256 :=
  Layer.stage Layer.varOnePass (h0 m ρ c) (m ((c : Thread nD τ).loc main_arg4)) (vec (m ((c : Thread nD τ).loc main_arg5))) (vec (m ((c : Thread nD τ).loc main_arg6)))
/-- The second product. -/
abbrev y2 (c : Dev nD) : Layer.Arr2 100000 128 := Layer.mulT (a1 m ρ c) (m ((c : Thread nD τ).loc main_arg7))

theorem prod0_eq (c : Dev nD) : Region0.prod (V1 m ρ) c = y1 m ρ c := by
  show Layer.mul (V1 m ρ c main_v31) (V1 m ρ c main_v32) = _
  rw [w1_eq m ρ c, mul_transpose]

theorem act1_eq (c : Dev nD) : Region1.act (V3 m ρ) c = a1 m ρ c := by
  show Layer.bnRelu (V3 m ρ c main_v38_0) (row1 (V3 m ρ c main_v40)) (row1 (V3 m ρ c main_v46)) (row1 (V3 m ρ c main_v34)) (row1 (V3 m ρ c main_v35)) = _
  rw [y1_eq m ρ c, mean1_eq m ρ c, var1_eq m ρ c, g1_eq m ρ c, b1_eq m ρ c,
    Region0.y_final (V1 m ρ) c, Region0.sum_final (V1 m ρ) c, Region0.sumsq_final (V1 m ρ) c, prod0_eq m ρ c]
  rfl

theorem prod1_eq (c : Dev nD) : Region1.prod (V3 m ρ) c = y2 m ρ c := by
  show Layer.mul (Region1.act (V3 m ρ) c) (V3 m ρ c main_v33) = _
  rw [act1_eq m ρ c, w2_eq m ρ c, mul_transpose]

/-- The result buffer after the run. -/
theorem result_eq (c : Dev nD) : (W6 m ρ c (Proc.devRef .tc main_v56) : Layer.Arr2 100000 128)
    = Layer.layer Layer.varOnePass Layer.varOnePass (h0 m ρ c) (m ((c : Thread nD τ).loc main_arg4))
        (vec (m ((c : Thread nD τ).loc main_arg5))) (vec (m ((c : Thread nD τ).loc main_arg6)))
        (m ((c : Thread nD τ).loc main_arg7)) (vec (m ((c : Thread nD τ).loc main_arg8))) (vec (m ((c : Thread nD τ).loc main_arg9))) := by
  have e6 : W6 m ρ c (Proc.devRef .tc main_v56) = (dat2 (V5 m ρ) c).arrAt 5 cfg2.N := W6_arr m ρ c 5
  rw [e6, Region2.out_final (V5 m ρ) c]
  show Layer.bnRelu (V5 m ρ c main_v47_0) (row1 (V5 m ρ c main_v49)) (row1 (V5 m ρ c main_v55)) (row1 (V5 m ρ c main_v36)) (row1 (V5 m ρ c main_v37)) = _
  rw [y2_eq m ρ c, mean2_eq m ρ c, var2_eq m ρ c, g2_eq m ρ c, b2_eq m ρ c,
    Region1.y_final (V3 m ρ) c, Region1.sum_final (V3 m ρ) c, Region1.sumsq_final (V3 m ρ) c, prod1_eq m ρ c]
  rfl

end Cert.KernelIdeal.Chain

end
-- ==== Proof.PreambleEq.lean ====
/-
  Both programs begin with the same thirty-odd host operations (index normalisation, two gathers, two scatter-adds, the
  degree-scaled residual). The array the kernel's first host stretch leaves for region 0 is therefore the reference's
  thirty-first stage of the same arguments: operation by operation the two are one term.
-/
import proofs.«143247_j50869592655513_1_alg».proof.Proof.Gen.KernelIdeal.Frame
import proofs.«143247_j50869592655513_1_alg».proof.Proof.RefRead
import Idealize.ShloMosaic.Lib.StableHlo.Run

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- What the first host stretch leaves in the buffer region 0 reads as its rows is the reference's thirty-first stage
    of the launch contents of the six arguments it depends on. -/
theorem residual_eq (c : Dev nD) :
    V1 m ρ c main_v31
      = Cert.ReferenceIdeal.ReadP.val_main_v31 (F := F) (m ((c : Thread nD τ).loc main_arg0)) (m ((c : Thread nD τ).loc main_arg1))
          (m ((c : Thread nD τ).loc main_arg2)) (m ((c : Thread nD τ).loc main_arg3)) (m ((c : Thread nD τ).loc main_arg10)) (m ((c : Thread nD τ).loc main_arg11)) := by
  -- the buffer's contents after the stretch: each operation's result read at its own buffer, down to the arguments
  show StableHlo.after hostOps0 (W0 m ρ c) (Proc.devRef .tc main_v31) = _
  after_results_simp
  -- the composed term is the reference's stages unfolded: the same operations over the same shapes and
  -- dimension records, applied to the launch contents of the same six arguments
  rfl

end Cert.KernelIdeal.Chain

end
-- ==== Proof.SpecAlgebra.lean ====
/-
  The two variances agree on real columns, and so do the two networks on real inputs.

  For a column x₁ … x_N of real numbers with N = 100000, S = Σ xᵢ, Q = Σ xᵢ² and μ = S / N:
      Σ (xᵢ − μ)² = Q − 2 μ S + N μ² = Q − N μ²,
  so the mean of the squared deviations is Q / N − μ², which is therefore nonnegative and is left unchanged by the
  clamp at zero. Products and finite sums of real numbers are real, and the reciprocal square root of a positive real
  is real, so the first stage's output is again an array of reals and the argument repeats for the second stage.
-/
import proofs.«143247_j50869592655513_1_alg».proof.Proof.Spec

noncomputable section

namespace Cert.Layer

open Idealize.ShloMosaic Idealize.ShloMosaic.ValueIdx

/-- A finite sum of coerced reals is the coerced sum. -/
theorem sum_coe_real {ι : Type} (s : Finset ι) (f : ι → ℝ) :
    ∑ i ∈ s, ((f i : ℝ) : EReal) = ((∑ i ∈ s, f i : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- The larger of two coerced reals is the coerced larger one. -/
theorem max_coe_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The float 100000.0 denotes the real 100000. -/
theorem rowCount_eq : rowCount = ((100000 : ℝ) : EReal) := by
  unfold rowCount
  simp [Ideal.ofBits, Ideal.ieee, -EReal.coe_mul]; norm_num

/-- The variance offset denotes a positive real. -/
theorem varOffset_pos : ∃ e : ℝ, 0 < e ∧ varOffset = (e : EReal) := by
  refine ⟨(10995116 : ℝ) * (2 : ℝ) ^ (-40 : ℤ), by positivity, ?_⟩
  unfold varOffset
  simp [Ideal.ofBits, Ideal.ieee, -EReal.coe_mul]

/-- The mean of a column of reals `c` is the real `(Σ c) · (1/100000)`. -/
theorem colMean_coe {n m : Nat} (y : Arr2 n m) (j : Fin m) (c : Fin n → ℝ)
    (hc : ∀ r, y (ix2 r j) = (c r : EReal)) :
    colMean y j = (((∑ r : Fin n, c r) * (1 / 100000) : ℝ) : EReal) := by
  unfold colMean colSum
  rw [rowCount_eq, Ideal.div_coe (by norm_num)]
  simp only [hc]
  rw [sum_coe_real, ← EReal.coe_mul]

/-- The mean of the squared deviations of a column of reals `c` from its mean `μ` is the real
`(Σ (c − μ)²) · (1/100000)`. -/
theorem varTwoPass_coe {n m : Nat} (y : Arr2 n m) (j : Fin m) (c : Fin n → ℝ)
    (hc : ∀ r, y (ix2 r j) = (c r : EReal)) :
    varTwoPass y j =
      (((∑ r : Fin n, (c r - (∑ r : Fin n, c r) * (1 / 100000)) * (c r - (∑ r : Fin n, c r) * (1 / 100000)))
        * (1 / 100000) : ℝ) : EReal) := by
  unfold varTwoPass
  rw [colMean_coe y j c hc, rowCount_eq, Ideal.div_coe (by norm_num)]
  simp only [hc, ← EReal.coe_sub, ← EReal.coe_mul]
  rw [sum_coe_real, ← EReal.coe_mul]

/-- The clamped one-pass variance of a column of reals `c` is the real `max ((Σ c²)/100000 − μ²) 0`. -/
theorem varOnePass_coe {n m : Nat} (y : Arr2 n m) (j : Fin m) (c : Fin n → ℝ)
    (hc : ∀ r, y (ix2 r j) = (c r : EReal)) :
    varOnePass y j =
      ((max ((∑ r : Fin n, c r * c r) * (1 / 100000)
        - (∑ r : Fin n, c r) * (1 / 100000) * ((∑ r : Fin n, c r) * (1 / 100000))) 0 : ℝ) : EReal) := by
  unfold varOnePass
  rw [colMean_coe y j c hc]
  unfold colSumSq
  rw [rowCount_eq, Ideal.div_coe (by norm_num)]
  simp only [hc, ← EReal.coe_mul]
  rw [sum_coe_real, ← EReal.coe_mul, ← EReal.coe_sub, ← EReal.coe_zero, max_coe_real]

/-- For 100000 reals with sum `S`, sum of squares `Q` and `μ = S/100000`:
`Σ (cᵣ − μ)² = Q − 2 μ S + 100000 μ²`, so dividing by 100000 gives `Q/100000 − μ²`. -/
theorem real_var_identity (c : Fin 100000 → ℝ) :
    (∑ r : Fin 100000, c r * c r) * (1 / 100000)
        - (∑ r : Fin 100000, c r) * (1 / 100000) * ((∑ r : Fin 100000, c r) * (1 / 100000)) =
      (∑ r : Fin 100000, (c r - (∑ r : Fin 100000, c r) * (1 / 100000)) * (c r - (∑ r : Fin 100000, c r) * (1 / 100000)))
        * (1 / 100000) := by
  generalize hS : (∑ r : Fin 100000, c r) = S
  generalize hQ : (∑ r : Fin 100000, c r * c r) = Q
  have hexp : (∑ r : Fin 100000, (c r - S * (1 / 100000)) * (c r - S * (1 / 100000))) =
      Q - 2 * (S * (1 / 100000)) * S + 100000 * (S * (1 / 100000) * (S * (1 / 100000))) := by
    have hterm : ∀ r : Fin 100000, (c r - S * (1 / 100000)) * (c r - S * (1 / 100000)) =
        c r * c r - 2 * (S * (1 / 100000)) * c r + S * (1 / 100000) * (S * (1 / 100000)) := fun r => by ring
    rw [Finset.sum_congr rfl (fun r _ => hterm r), Finset.sum_add_distrib, Finset.sum_sub_distrib,
      ← Finset.mul_sum, hS, hQ, Finset.sum_const, Finset.card_univ, Fintype.card_fin, nsmul_eq_mul]
    push_cast
    ring
  rw [hexp]
  ring

/-- A sum of squares of reals, divided by 100000, is nonnegative. -/
theorem real_var_nonneg {n : Nat} (c : Fin n → ℝ) (μ : ℝ) :
    0 ≤ (∑ r : Fin n, (c r - μ) * (c r - μ)) * (1 / 100000) :=
  mul_nonneg (Finset.sum_nonneg (fun r _ => mul_self_nonneg _)) (by norm_num)

/-- The mean of a column of a real matrix is real. -/
theorem colMean_real {n m : Nat} (y : Arr2 n m) (hy : Finite y) (j : Fin m) :
    ∃ μ : ℝ, colMean y j = (μ : EReal) := by
  choose a ha using hy
  exact ⟨_, colMean_coe y j (fun r => a (ix2 r j)) (fun r => ha _)⟩

/-- The two-pass variance of a column of a real matrix is a nonnegative real. -/
theorem varTwoPass_real {n m : Nat} (y : Arr2 n m) (hy : Finite y) (j : Fin m) :
    ∃ v : ℝ, 0 ≤ v ∧ varTwoPass y j = (v : EReal) := by
  choose a ha using hy
  exact ⟨_, real_var_nonneg _ _, varTwoPass_coe y j (fun r => a (ix2 r j)) (fun r => ha _)⟩

/-- On a matrix of reals with 100000 rows the two variances agree. -/
theorem varOnePass_eq_varTwoPass {m : Nat} (y : Arr2 100000 m) (hy : Finite y) (j : Fin m) :
    varOnePass y j = varTwoPass y j := by
  choose a ha using hy
  have hc : ∀ r, y (ix2 r j) = ((a (ix2 r j) : ℝ) : EReal) := fun r => ha _
  rw [varOnePass_coe y j (fun r => a (ix2 r j)) hc, varTwoPass_coe y j (fun r => a (ix2 r j)) hc,
    real_var_identity (fun r => a (ix2 r j)), max_eq_left (real_var_nonneg _ _)]

/-- A product of real matrices is real. -/
theorem finite_mulT {n k m : Nat} (x : Arr2 n k) (w : Arr2 m k) (hx : Finite x) (hw : Finite w) : Finite (mulT x w) := by
  choose a ha using hx
  choose c hc using hw
  intro i
  refine ⟨∑ q : Fin k, a (ix2 (i 0) q) * c (ix2 (i 1) q), ?_⟩
  show (∑ q : Fin k, x (ix2 (i 0) q) * w (ix2 (i 1) q)) = _
  simp only [ha, hc, ← EReal.coe_mul]
  exact sum_coe_real _ _

/-- One stage on real data, with either variance, gives real data (its two variances agreeing, say it for the two-pass one). -/
theorem finite_stage {k m : Nat} (x : Arr2 100000 k) (w : Arr2 m k) (g b : Fin m → EReal)
    (hx : Finite x) (hw : Finite w) (hg : Finite g) (hb : Finite b) : Finite (stage varTwoPass x w g b) := by
  have hy : Finite (mulT x w) := finite_mulT x w hx hw
  obtain ⟨e, he, hoff⟩ := varOffset_pos
  intro i
  obtain ⟨yi, hyi⟩ := hy i
  obtain ⟨μ, hμ⟩ := colMean_real (mulT x w) hy (i 1)
  obtain ⟨v, hv0, hv⟩ := varTwoPass_real (mulT x w) hy (i 1)
  obtain ⟨gi, hgi⟩ := hg (i 1)
  obtain ⟨bi, hbi⟩ := hb (i 1)
  -- the variance plus the offset is a positive real, so its reciprocal square root is real
  have hpos : 0 < v + e := by linarith
  refine ⟨max ((yi - μ) * (Real.sqrt (v + e))⁻¹ * gi + bi) 0, ?_⟩
  show max ((mulT x w i - colMean (mulT x w) (i 1)) * Ideal.rsqrt (varTwoPass (mulT x w) (i 1) + varOffset)
      * g (i 1) + b (i 1)) 0 = _
  rw [hyi, hμ, hv, hoff, hgi, hbi, ← EReal.coe_add, Ideal.rsqrt_coe, if_neg (not_lt.mpr hpos.le),
    if_neg hpos.ne', ← EReal.coe_sub, ← EReal.coe_mul, ← EReal.coe_mul, ← EReal.coe_add, ← EReal.coe_zero,
    max_coe_real]

/-- One stage on real data does not depend on which variance is used. -/
theorem stage_eq {k m : Nat} (x : Arr2 100000 k) (w : Arr2 m k) (g b : Fin m → EReal)
    (hx : Finite x) (hw : Finite w) : stage varOnePass x w g b = stage varTwoPass x w g b := by
  have hvar : varOnePass (mulT x w) = varTwoPass (mulT x w) :=
    funext (fun j => varOnePass_eq_varTwoPass (mulT x w) (finite_mulT x w hx hw) j)
  unfold stage
  rw [hvar]

/-- The two networks agree on real inputs. -/
theorem layer_eq {d h : Nat} (x : Arr2 100000 d) (w1 : Arr2 h d) (g1 b1 : Fin h → EReal) (w2 : Arr2 d h) (g2 b2 : Fin d → EReal)
    (hx : Finite x) (hw1 : Finite w1) (hg1 : Finite g1) (hb1 : Finite b1) (hw2 : Finite w2) :
    layer varOnePass varOnePass x w1 g1 b1 w2 g2 b2 = layer varTwoPass varTwoPass x w1 g1 b1 w2 g2 b2 := by
  unfold layer
  rw [stage_eq x w1 g1 b1 hx hw1,
    stage_eq (stage varTwoPass x w1 g1 b1) w2 g2 b2 (finite_stage x w1 g1 b1 hx hw1 hg1 hb1) hw2]

end Cert.Layer

end
-- ==== Proof.PreambleFinite.lean ====
/-
  The array both programs feed to the first matrix product — the two scatter-added gathers plus the degree-scaled
  residual — is an array of reals whenever its four float inputs are: a gather's entry is an entry of its table, a
  scatter-add's entry is a zero plus a finite sum of update entries, and sums, differences and products of reals are real.
-/
import proofs.«143247_j50869592655513_1_alg».proof.Proof.RefRead
import proofs.«143247_j50869592655513_1_alg».proof.Proof.Spec
import proofs.«143247_j50869592655513_1_alg».proof.Proof.SpecAlgebra
import Idealize.ShloMosaic.Lib.Pipeline.Value
import Idealize.ShloMosaic.Lib.ValueIdx
import Idealize.ShloMosaic.PureOps.Ideal.Laws

noncomputable section

namespace Cert.Layer

open Idealize.ShloMosaic

/-- The sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is real. -/
theorem real_sum {ι : Type} (s : Finset ι) (f : ι → EReal) (hf : ∀ i, ∃ r : ℝ, f i = (r : EReal)) :
    ∃ r : ℝ, ∑ i ∈ s, f i = (r : EReal) := by
  choose c hc using hf
  exact ⟨∑ i ∈ s, c i, by simp only [hc]; exact sum_coe_real s c⟩

/-- A gather's entry is an entry of its table, so a gather from a real table is real whatever the indices. -/
theorem finite_gather {s si t : Shape} {w : Nat} (d : GatherDims s si t) (x : s.Idx → EReal) (idx : IVec si w)
    (hx : Finite x) : Finite (Host.gather d x idx) :=
  fun j => hx (d.operandIdx j idx)

/-- A scatter-add's entry is the operand's entry plus the sum of the update entries that land on it: real when the
operand and the updates are, whatever the indices. -/
theorem finite_scatterAdd {s si u : Shape} {w : Nat} (d : ScatterDims s si u) (x : FVec Ideal s .f32) (idx : IVec si w)
    (upd : FVec Ideal u .f32) (hx : Finite x) (hu : Finite upd) : Finite (Host.scatterAdd d x idx upd) := by
  intro i
  unfold Host.scatterAdd
  rw [Ideal.hostScatterAdd_def]
  unfold Ideal.hostScatterAdd
  exact real_add (hx i) (real_sum _ _ hu)

/-- The pattern of `+0.0` denotes the real 0. -/
theorem ofBits_zero_real : ∃ r : ℝ, FloatOps.ofBits (F := Ideal) .f32 0x00000000#32 = (r : EReal) :=
  ⟨0, by simp [Ideal.ofBits, Ideal.ieee]⟩

/-- The pattern of `1.0` denotes the real 1. -/
theorem ofBits_one_real : ∃ r : ℝ, FloatOps.ofBits (F := Ideal) .f32 0x3F800000#32 = (r : EReal) :=
  ⟨1, by simp [Ideal.ofBits, Ideal.ieee, -EReal.coe_mul]; norm_num⟩

end Cert.Layer

namespace Cert.ReferenceIdeal.RefValue

open Idealize.ShloMosaic Idealize.ShloMosaic.TcCoe Idealize.SL.Sem Idealize.ShloMosaic.ValueIdx
open Cert.ReferenceIdeal Cert.ReferenceIdeal.ReadP
open Cert.Layer (real_add real_sub real_mul finite_gather finite_scatterAdd ofBits_zero_real ofBits_one_real)

/-- The thirty-first stage is real on real inputs, whatever the two index inputs hold. -/
theorem finite_residual (x0 : FVec Ideal S100000x128 .f32) (x1 : FVec Ideal S600000x128 .f32) (x2 : FVec Ideal S100000 .f32) (x3 : FVec Ideal S1 .f32)
    (x10 x11 : IVec S600000 32) (h0 : Layer.Finite x0) (h1 : Layer.Finite x1) (h2 : Layer.Finite x2) (h3 : Layer.Finite x3) :
    Layer.Finite (val_main_v31 (F := Ideal) x0 x1 x2 x3 x10 x11) := by
  -- the two gathers read entries of x0
  have f6 : Layer.Finite (val_main_v6 (F := Ideal) x0 x10) := by
    unfold val_main_v6; exact finite_gather _ _ _ h0
  have f13 : Layer.Finite (val_main_v13 (F := Ideal) x0 x11) := by
    unfold val_main_v13; exact finite_gather _ _ _ h0
  -- their sum plus x1 is the update array of both scatter-adds
  have f14 : Layer.Finite (val_main_v14 (F := Ideal) x0 x10 x11) := fun i => by
    rw [val_main_v14_apply, Ideal.addf_def]; exact real_add (f6 i) (f13 i)
  have f15 : Layer.Finite (val_main_v15 (F := Ideal) x0 x1 x10 x11) := fun i => by
    rw [val_main_v15_apply, Ideal.addf_def]; exact real_add (f14 i) (h1 i)
  -- both scatter-adds start from an array of zeros
  have f16 : Layer.Finite (val_main_v16 (F := Ideal)) := fun i => by
    rw [val_main_v16_apply, val_main_cst_apply]; exact ofBits_zero_real
  have f19 : Layer.Finite (val_main_v19 (F := Ideal)) := fun i => by
    rw [val_main_v19_apply, val_main_cst_3_apply]; exact ofBits_zero_real
  have f18 : Layer.Finite (val_main_v18 (F := Ideal) x0 x1 x10 x11) := by
    unfold val_main_v18; exact finite_scatterAdd _ _ _ _ f16 f15
  have f21 : Layer.Finite (val_main_v21 (F := Ideal) x0 x1 x10 x11) := by
    unfold val_main_v21; exact finite_scatterAdd _ _ _ _ f19 f15
  have f22 : Layer.Finite (val_main_v22 (F := Ideal) x0 x1 x10 x11) := fun i => by
    rw [val_main_v22_apply, Ideal.addf_def]; exact real_add (f18 i) (f21 i)
  -- the residual's factor (1 + x3) − x2, broadcast along the rows
  have f23 : Layer.Finite (val_main_v23 (F := Ideal)) := fun i => by
    rw [val_main_v23_apply, val_main_cst_4_apply]; exact ofBits_one_real
  have f24 : Layer.Finite (val_main_v24 (F := Ideal) x3) := fun i => by
    rw [val_main_v24_apply, Ideal.addf_def]; exact real_add (f23 i) (h3 i)
  have f25 : Layer.Finite (val_main_v25 (F := Ideal) x2) := fun i => by
    rw [val_main_v25_apply]; exact h2 _
  have f26 : Layer.Finite (val_main_v26 (F := Ideal) x3) := fun i => by
    rw [val_main_v26_apply]; exact f24 _
  have f27 : Layer.Finite (val_main_v27 (F := Ideal) x3) := fun i => by
    rw [val_main_v27_apply]; exact f26 _
  have f28 : Layer.Finite (val_main_v28 (F := Ideal) x2 x3) := fun i => by
    rw [val_main_v28_apply, Ideal.subf_def]; exact real_sub (f27 i) (f25 i)
  have f29 : Layer.Finite (val_main_v29 (F := Ideal) x2 x3) := fun i => by
    rw [val_main_v29_apply]; exact f28 _
  have f30 : Layer.Finite (val_main_v30 (F := Ideal) x0 x2 x3) := fun i => by
    rw [val_main_v30_apply, Ideal.mulf_def]; exact real_mul (f29 i) (h0 i)
  intro i
  rw [val_main_v31_apply, Ideal.addf_def]
  exact real_add (f22 i) (f30 i)

end Cert.ReferenceIdeal.RefValue

end
-- ==== Proof.PreFinite.lean ====
/-
  What the precondition says: each of the ten float inputs is compared, entry by entry, in absolute value against +∞,
  the comparisons are reduced by "and" over every entry, and the ten answers are joined by "and". If the result is
  true then every entry of every float input is a real number (an extended real whose absolute value is below +∞ is
  neither of the infinities).
-/
import proofs.«143247_j50869592655513_1_alg».proof.Pre_finite_inputs
import proofs.«143247_j50869592655513_1_alg».proof.Proof.Spec
import Idealize.ShloMosaic.Lib.ReduceAll
import Idealize.ShloMosaic.Lib.ValueIdx

noncomputable section

namespace Cert.Pre_finite_inputs.Reals

open Idealize.ShloMosaic Idealize.ShloMosaic.ValueIdx Cert.Pre_finite_inputs

/-- The scalar shape has one index. -/
instance : Subsingleton S_.Idx := ⟨fun a b => funext fun d => d.elim0⟩

/-- The pattern `0x7F800000` (exponent all ones, significand zero, sign clear) denotes +∞. -/
theorem inf_eq : Ideal.ofBits .f32 0x7F800000#32 = (⊤ : EReal) := by
  simp [Ideal.ofBits, Ideal.ieee]

/-- An extended real whose absolute value `max x (−x)` is below +∞ is a real: at −∞ the negation is +∞, at +∞ the
value itself is. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- A one-bit word made from a Boolean is 1 exactly when the Boolean is true. -/
theorem ofBool_eq_one_iff (b : Bool) : BitVec.ofBool b = 1#1 ↔ b = true := by cases b <;> decide

/-- One input's test: if "and" over every entry of `|x| < +∞` is true, every entry of `x` is a real. -/
theorem finite_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
      (constantI S_ 1 1#1) hr h0 ix0 = 1#1) : Layer.Finite x := by
  intro i
  have hi := Host.reduce_andi_all _ _ hr h0 ix0 e i
  -- at entry `i` the comparison is `max (x i) (−x i) < +∞` in the extended reals
  have hi' : Ideal.cmp .olt (max (x i) (-(x i))) (Ideal.ofBits .f32 0x7F800000#32) = 1#1 := hi
  rw [inf_eq] at hi'
  simp only [Ideal.cmp, ofBool_eq_one_iff, decide_eq_true_eq] at hi'
  exact real_of_abs_lt_top (x i) hi'

/-- The precondition, true, makes every float input an array of reals. -/
theorem of_pre [Cert.Pre_finite_inputs.Facts]
    (a0 : FVec Ideal S100000x128 .f32) (a1 : FVec Ideal S600000x128 .f32) (a2 : FVec Ideal S100000 .f32) (a3 : FVec Ideal S1 .f32)
    (a4 : FVec Ideal S256x128 .f32) (a5 : FVec Ideal S256 .f32) (a6 : FVec Ideal S256 .f32) (a7 : FVec Ideal S128x256 .f32)
    (a8 : FVec Ideal S128 .f32) (a9 : FVec Ideal S128 .f32) (a10 : IVec S600000 32) (a11 : IVec S600000 32)
    (h : Cert.Pre_finite_inputs.fn (F := Ideal) a0 a1 a2 a3 a4 a5 a6 a7 a8 a9 a10 a11 = fun _ => 1#1) :
    Layer.Finite a0 ∧ Layer.Finite a1 ∧ Layer.Finite a2 ∧ Layer.Finite a3 ∧ Layer.Finite a4 ∧ Layer.Finite a5
      ∧ Layer.Finite a6 ∧ Layer.Finite a7 ∧ Layer.Finite a8 ∧ Layer.Finite a9 := by
  have h0 := congrFun h ValueIdx.ix0
  dsimp only [fn, fn_part1, fn_part2] at h0
  -- the ten answers are joined by "and": all of them are true
  simp only [andi, IntOp.andi_eq_one, and_assoc] at h0
  obtain ⟨e0, e1, e2, e3, e4, e5, e6, e7, e8, e9⟩ := h0
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6, finite_of_all a7 _ _ _ e7,
    finite_of_all a8 _ _ _ e8, finite_of_all a9 _ _ _ e9⟩

end Cert.Pre_finite_inputs.Reals

end
-- ==== Proof.RefValue.lean ====
/-
  The reference program's result, stage by stage, is the two-stage network over the two-pass variance, applied to the
  array its first thirty-one operations compute (the gathers, the two scatter-adds and the degree-scaled residual).

  Each stage of the network is read in four steps: the product with a transposed weight matrix (a sum over the
  contracted axis), the column means (a sum over the rows divided by the row count), the column variances (the mean
  of the squared deviations), and the normalised, scaled, shifted and clamped output. The first stage's array is
  never opened: every step speaks of the product only.
-/
import proofs.«143247_j50869592655513_1_alg».proof.Proof.RefRun
import proofs.«143247_j50869592655513_1_alg».proof.Proof.RefRead
import proofs.«143247_j50869592655513_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.ReadP

/-- A rank-1 array read as a function of its one coordinate. -/
abbrev vec {n : Nat} (x : Layer.Arr1 n) : Fin n → EReal := fun j => x (ix1 j)

section First

variable (x0 : FVec Ideal S100000x128 .f32) (x1 : FVec Ideal S600000x128 .f32) (x2 : FVec Ideal S100000 .f32) (x3 : FVec Ideal S1 .f32)
  (x4 : FVec Ideal S256x128 .f32) (x5 x6 : FVec Ideal S256 .f32) (x10 x11 : IVec S600000 32)

/-- The first product: the thirty-first stage times the transpose of the first weight matrix. -/
theorem v32_eq :
    (val_main_v32 (F := Ideal) x0 x1 x2 x3 x4 x10 x11 : Layer.Arr2 100000 256)
      = Layer.mulT (val_main_v31 (F := Ideal) x0 x1 x2 x3 x10 x11) x4 := by
  funext i
  obtain ⟨r, j, rfl⟩ : ∃ r j, i = ix2 r j := ⟨i 0, i 1, eq_ix2 i⟩
  rw [val_main_v32_apply]
  generalize val_main_v31 (F := Ideal) x0 x1 x2 x3 x10 x11 = h0
  show _ = ∑ q : Fin 128, h0 (ix2 r q) * x4 (ix2 j q)
  refine Finset.sum_congr rfl fun k _ => ?_
  have e1 : lidx_main_v32 (ix2 r j) k = ix2 r k := funext fun a => by match a with | ⟨0, _⟩ => rfl | ⟨1, _⟩ => rfl
  have e2 : ridx_main_v32 (ix2 r j) k = ix2 j k := funext fun a => by match a with | ⟨0, _⟩ => rfl | ⟨1, _⟩ => rfl
  rw [e1, e2]

/-- The column means of the first product. -/
theorem v35_eq (j : Fin 256) :
    val_main_v35 (F := Ideal) x0 x1 x2 x3 x4 x10 x11 (ix1 j)
      = Layer.colMean (val_main_v32 (F := Ideal) x0 x1 x2 x3 x4 x10 x11 : Layer.Arr2 100000 256) j := by
  rw [val_main_v35_apply, val_main_v33_apply, val_main_v34_apply, val_main_cst_5_apply, val_main_cst_6_apply]
  generalize val_main_v32 (F := Ideal) x0 x1 x2 x3 x4 x10 x11 = y
  have e : ∀ k : Fin 100000, idx_main_v33 (ix1 j) k = ix2 k j := fun k =>
    funext fun a => by match a with | ⟨0, _⟩ => rfl | ⟨1, _⟩ => rfl
  have hs : (∑ k : Fin 100000, y (idx_main_v33 (ix1 j) k)) = ∑ r : Fin 100000, y (ix2 r j) :=
    Finset.sum_congr rfl fun k _ => by rw [e k]
  rw [hs]
  simp only [Ideal.hostDivf_def, Ideal.ofBits_def, Ideal.ofBits_zero_f32, zero_add]
  rfl

/-- The column variances of the first product, by the two-pass formula. -/
theorem v42_eq (j : Fin 256) :
    val_main_v42 (F := Ideal) x0 x1 x2 x3 x4 x10 x11 (ix1 j)
      = Layer.varTwoPass (val_main_v32 (F := Ideal) x0 x1 x2 x3 x4 x10 x11 : Layer.Arr2 100000 256) j := by
  rw [val_main_v42_apply, val_main_v40_apply, val_main_v41_apply, val_main_cst_7_apply, val_main_cst_8_apply]
  have e : ∀ k : Fin 100000, idx_main_v40 (ix1 j) k = ix2 k j := fun k =>
    funext fun a => by match a with | ⟨0, _⟩ => rfl | ⟨1, _⟩ => rfl
  have e' : ∀ k : Fin 100000, idx_main_v36 (idx_main_v37 (ix2 k j)) = ix1 j := fun k =>
    funext fun a => by match a with | ⟨0, _⟩ => rfl
  have ht : ∀ k : Fin 100000, val_main_v39 (F := Ideal) x0 x1 x2 x3 x4 x10 x11 (idx_main_v40 (ix1 j) k)
      = ((val_main_v32 (F := Ideal) x0 x1 x2 x3 x4 x10 x11 : Layer.Arr2 100000 256) (ix2 k j)
          - Layer.colMean (val_main_v32 (F := Ideal) x0 x1 x2 x3 x4 x10 x11 : Layer.Arr2 100000 256) j)
        * ((val_main_v32 (F := Ideal) x0 x1 x2 x3 x4 x10 x11 : Layer.Arr2 100000 256) (ix2 k j)
          - Layer.colMean (val_main_v32 (F := Ideal) x0 x1 x2 x3 x4 x10 x11 : Layer.Arr2 100000 256) j) := fun k => by
    rw [e k, val_main_v39_apply, val_main_v38_apply, val_main_v37_apply, val_main_v36_apply, e' k, v35_eq]
    rfl
  have hs : (∑ k : Fin 100000, val_main_v39 (F := Ideal) x0 x1 x2 x3 x4 x10 x11 (idx_main_v40 (ix1 j) k))
      = ∑ r : Fin 100000, ((val_main_v32 (F := Ideal) x0 x1 x2 x3 x4 x10 x11 : Layer.Arr2 100000 256) (ix2 r j)
          - Layer.colMean (val_main_v32 (F := Ideal) x0 x1 x2 x3 x4 x10 x11 : Layer.Arr2 100000 256) j)
        * ((val_main_v32 (F := Ideal) x0 x1 x2 x3 x4 x10 x11 : Layer.Arr2 100000 256) (ix2 r j)
          - Layer.colMean (val_main_v32 (F := Ideal) x0 x1 x2 x3 x4 x10 x11 : Layer.Arr2 100000 256) j) :=
    Finset.sum_congr rfl fun k _ => ht k
  rw [hs]
  generalize val_main_v32 (F := Ideal) x0 x1 x2 x3 x4 x10 x11 = y
  simp only [Ideal.hostDivf_def, Ideal.ofBits_def, Ideal.ofBits_zero_f32, zero_add]
  rfl

end First

section FirstOut

variable (x0 : FVec Ideal S100000x128 .f32) (x1 : FVec Ideal S600000x128 .f32) (x2 : FVec Ideal S100000 .f32) (x3 : FVec Ideal S1 .f32)
  (x4 : FVec Ideal S256x128 .f32) (x5 x6 : FVec Ideal S256 .f32) (x10 x11 : IVec S600000 32)

/-- The output of the first stage: the first product, normalised column by column with the two-pass variance, scaled,
    shifted, and cut off at zero. -/
theorem v58_eq :
    (val_main_v58 (F := Ideal) x0 x1 x2 x3 x4 x5 x6 x10 x11 : Layer.Arr2 100000 256)
      = Layer.stage Layer.varTwoPass (val_main_v31 (F := Ideal) x0 x1 x2 x3 x10 x11) x4 (vec x5) (vec x6) := by
  funext i
  obtain ⟨r, j, rfl⟩ : ∃ r j, i = ix2 r j := ⟨i 0, i 1, eq_ix2 i⟩
  have e1 : idx_main_v43 (idx_main_v44 (ix2 r j)) = ix1 j := funext fun a => by match a with | ⟨0, _⟩ => rfl
  have e2 : idx_main_v49 (idx_main_v50 (ix2 r j)) = ix1 j := funext fun a => by match a with | ⟨0, _⟩ => rfl
  have e3 : idx_main_v52 (idx_main_v53 (ix2 r j)) = ix1 j := funext fun a => by match a with | ⟨0, _⟩ => rfl
  have e4 : idx_main_v55 (idx_main_v56 (ix2 r j)) = ix1 j := funext fun a => by match a with | ⟨0, _⟩ => rfl
  unfold Layer.stage
  rw [← v32_eq x0 x1 x2 x3 x4 x10 x11]
  rw [val_main_v58_apply, val_main_v57_apply, val_main_v54_apply, val_main_v51_apply, val_main_v45_apply,
    val_main_v44_apply, val_main_v43_apply, e1, v35_eq,
    val_main_v50_apply, val_main_v49_apply, e2, val_main_v48_apply, val_main_v47_apply, v42_eq,
    val_main_v46_apply, val_main_cst_9_apply,
    val_main_v53_apply, val_main_v52_apply, e3, val_main_v56_apply, val_main_v55_apply, e4,
    val_main_call0_v0_apply, val_main_call0_cst_apply]
  generalize val_main_v32 (F := Ideal) x0 x1 x2 x3 x4 x10 x11 = y
  simp only [Ideal.maximumf_def, Ideal.addf_def, Ideal.mulf_def, Ideal.subf_def, Ideal.hostUnary_rsqrt_def,
    Ideal.ofBits_def, Ideal.ofBits_zero_f32]
  rfl

end FirstOut

section Second

variable (x0 : FVec Ideal S100000x128 .f32) (x1 : FVec Ideal S600000x128 .f32) (x2 : FVec Ideal S100000 .f32) (x3 : FVec Ideal S1 .f32)
  (x4 : FVec Ideal S256x128 .f32) (x5 x6 : FVec Ideal S256 .f32) (x7 : FVec Ideal S128x256 .f32) (x8 x9 : FVec Ideal S128 .f32)
  (x10 x11 : IVec S600000 32)

/-- The second product: the first stage's output times the transpose of the second weight matrix. -/
theorem v59_eq :
    (val_main_v59 (F := Ideal) x0 x1 x2 x3 x4 x5 x6 x7 x10 x11 : Layer.Arr2 100000 128)
      = Layer.mulT (val_main_v58 (F := Ideal) x0 x1 x2 x3 x4 x5 x6 x10 x11 : Layer.Arr2 100000 256) x7 := by
  funext i
  obtain ⟨r, j, rfl⟩ : ∃ r j, i = ix2 r j := ⟨i 0, i 1, eq_ix2 i⟩
  rw [val_main_v59_apply]
  generalize val_main_v58 (F := Ideal) x0 x1 x2 x3 x4 x5 x6 x10 x11 = h1
  show _ = ∑ q : Fin 256, h1 (ix2 r q) * x7 (ix2 j q)
  refine Finset.sum_congr rfl fun k _ => ?_
  have e1 : lidx_main_v59 (ix2 r j) k = ix2 r k := funext fun a => by match a with | ⟨0, _⟩ => rfl | ⟨1, _⟩ => rfl
  have e2 : ridx_main_v59 (ix2 r j) k = ix2 j k := funext fun a => by match a with | ⟨0, _⟩ => rfl | ⟨1, _⟩ => rfl
  rw [e1, e2]

/-- The column means of the second product. -/
theorem v62_eq (j : Fin 128) :
    val_main_v62 (F := Ideal) x0 x1 x2 x3 x4 x5 x6 x7 x10 x11 (ix1 j)
      = Layer.colMean (val_main_v59 (F := Ideal) x0 x1 x2 x3 x4 x5 x6 x7 x10 x11 : Layer.Arr2 100000 128) j := by
  rw [val_main_v62_apply, val_main_v60_apply, val_main_v61_apply, val_main_cst_10_apply, val_main_cst_11_apply]
  generalize val_main_v59 (F := Ideal) x0 x1 x2 x3 x4 x5 x6 x7 x10 x11 = y
  have e : ∀ k : Fin 100000, idx_main_v60 (ix1 j) k = ix2 k j := fun k =>
    funext fun a => by match a with | ⟨0, _⟩ => rfl | ⟨1, _⟩ => rfl
  have hs : (∑ k : Fin 100000, y (idx_main_v60 (ix1 j) k)) = ∑ r : Fin 100000, y (ix2 r j) :=
    Finset.sum_congr rfl fun k _ => by rw [e k]
  rw [hs]
  simp only [Ideal.hostDivf_def, Ideal.ofBits_def, Ideal.ofBits_zero_f32, zero_add]
  rfl

/-- The column variances of the second product, by the two-pass formula. -/
theorem v69_eq (j : Fin 128) :
    val_main_v69 (F := Ideal) x0 x1 x2 x3 x4 x5 x6 x7 x10 x11 (ix1 j)
      = Layer.varTwoPass (val_main_v59 (F := Ideal) x0 x1 x2 x3 x4 x5 x6 x7 x10 x11 : Layer.Arr2 100000 128) j := by
  rw [val_main_v69_apply, val_main_v67_apply, val_main_v68_apply, val_main_cst_12_apply, val_main_cst_13_apply]
  have e : ∀ k : Fin 100000, idx_main_v67 (ix1 j) k = ix2 k j := fun k =>
    funext fun a => by match a with | ⟨0, _⟩ => rfl | ⟨1, _⟩ => rfl
  have e' : ∀ k : Fin 100000, idx_main_v63 (idx_main_v64 (ix2 k j)) = ix1 j := fun k =>
    funext fun a => by match a with | ⟨0, _⟩ => rfl
  have ht : ∀ k : Fin 100000, val_main_v66 (F := Ideal) x0 x1 x2 x3 x4 x5 x6 x7 x10 x11 (idx_main_v67 (ix1 j) k)
      = ((val_main_v59 (F := Ideal) x0 x1 x2 x3 x4 x5 x6 x7 x10 x11 : Layer.Arr2 100000 128) (ix2 k j)
          - Layer.colMean (val_main_v59 (F := Ideal) x0 x1 x2 x3 x4 x5 x6 x7 x10 x11 : Layer.Arr2 100000 128) j)
        * ((val_main_v59 (F := Ideal) x0 x1 x2 x3 x4 x5 x6 x7 x10 x11 : Layer.Arr2 100000 128) (ix2 k j)
          - Layer.colMean (val_main_v59 (F := Ideal) x0 x1 x2 x3 x4 x5 x6 x7 x10 x11 : Layer.Arr2 100000 128) j) := fun k => by
    rw [e k, val_main_v66_apply, val_main_v65_apply, val_main_v64_apply, val_main_v63_apply, e' k, v62_eq]
    rfl
  have hs : (∑ k : Fin 100000, val_main_v66 (F := Ideal) x0 x1 x2 x3 x4 x5 x6 x7 x10 x11 (idx_main_v67 (ix1 j) k))
      = ∑ r : Fin 100000, ((val_main_v59 (F := Ideal) x0 x1 x2 x3 x4 x5 x6 x7 x10 x11 : Layer.Arr2 100000 128) (ix2 r j)
          - Layer.colMean (val_main_v59 (F := Ideal) x0 x1 x2 x3 x4 x5 x6 x7 x10 x11 : Layer.Arr2 100000 128) j)
        * ((val_main_v59 (F := Ideal) x0 x1 x2 x3 x4 x5 x6 x7 x10 x11 : Layer.Arr2 100000 128) (ix2 r j)
          - Layer.colMean (val_main_v59 (F := Ideal) x0 x1 x2 x3 x4 x5 x6 x7 x10 x11 : Layer.Arr2 100000 128) j) :=
    Finset.sum_congr rfl fun k _ => ht k
  rw [hs]
  generalize val_main_v59 (F := Ideal) x0 x1 x2 x3 x4 x5 x6 x7 x10 x11 = y
  simp only [Ideal.hostDivf_def, Ideal.ofBits_def, Ideal.ofBits_zero_f32, zero_add]
  rfl

/-- The output of the second stage, over the first stage's output. -/
theorem v85_eq :
    (val_main_v85 (F := Ideal) x0 x1 x2 x3 x4 x5 x6 x7 x8 x9 x10 x11 : Layer.Arr2 100000 128)
      = Layer.stage Layer.varTwoPass (val_main_v58 (F := Ideal) x0 x1 x2 x3 x4 x5 x6 x10 x11 : Layer.Arr2 100000 256)
          x7 (vec x8) (vec x9) := by
  funext i
  obtain ⟨r, j, rfl⟩ : ∃ r j, i = ix2 r j := ⟨i 0, i 1, eq_ix2 i⟩
  have e1 : idx_main_v70 (idx_main_v71 (ix2 r j)) = ix1 j := funext fun a => by match a with | ⟨0, _⟩ => rfl
  have e2 : idx_main_v76 (idx_main_v77 (ix2 r j)) = ix1 j := funext fun a => by match a with | ⟨0, _⟩ => rfl
  have e3 : idx_main_v79 (idx_main_v80 (ix2 r j)) = ix1 j := funext fun a => by match a with | ⟨0, _⟩ => rfl
  have e4 : idx_main_v82 (idx_main_v83 (ix2 r j)) = ix1 j := funext fun a => by match a with | ⟨0, _⟩ => rfl
  unfold Layer.stage
  rw [← v59_eq x0 x1 x2 x3 x4 x5 x6 x7 x10 x11]
  rw [val_main_v85_apply, val_main_v84_apply, val_main_v81_apply, val_main_v78_apply, val_main_v72_apply,
    val_main_v71_apply, val_main_v70_apply, e1, v62_eq,
    val_main_v77_apply, val_main_v76_apply, e2, val_main_v75_apply, val_main_v74_apply, v69_eq,
    val_main_v73_apply, val_main_cst_14_apply,
    val_main_v80_apply, val_main_v79_apply, e3, val_main_v83_apply, val_main_v82_apply, e4,
    val_main_call1_v0_apply, val_main_call1_cst_apply]
  generalize val_main_v59 (F := Ideal) x0 x1 x2 x3 x4 x5 x6 x7 x10 x11 = y
  simp only [Ideal.maximumf_def, Ideal.addf_def, Ideal.mulf_def, Ideal.subf_def, Ideal.hostUnary_rsqrt_def,
    Ideal.ofBits_def, Ideal.ofBits_zero_f32]
  rfl

end Second

/-- The last stage of the reference, read at every index, is the network with the two-pass variance over the
    thirty-first stage (the residual array) and the six parameter inputs. -/
theorem result_eq (x0 : FVec Ideal S100000x128 .f32) (x1 : FVec Ideal S600000x128 .f32) (x2 : FVec Ideal S100000 .f32) (x3 : FVec Ideal S1 .f32)
    (x4 : FVec Ideal S256x128 .f32) (x5 x6 : FVec Ideal S256 .f32) (x7 : FVec Ideal S128x256 .f32) (x8 x9 : FVec Ideal S128 .f32)
    (x10 x11 : IVec S600000 32) :
    (val_main_v85 (F := Ideal) x0 x1 x2 x3 x4 x5 x6 x7 x8 x9 x10 x11 : Layer.Arr2 100000 128)
      = Layer.layer Layer.varTwoPass Layer.varTwoPass (val_main_v31 (F := Ideal) x0 x1 x2 x3 x10 x11) x4 (vec x5) (vec x6) x7 (vec x8) (vec x9) := by
  unfold Layer.layer
  rw [v85_eq, v58_eq]

end Cert.ReferenceIdeal.RefValue

end
-- ==== Proof.lean ====
/-
  The certificate of the graph layer: two gathers and two scatter-adds build, on the host, a residual array of 100000
  rows; the kernel program then runs the two-stage network  x ↦ bnRelu (bnRelu (x · W₁ᵀ) · W₂ᵀ)  in three TensorCore
  regions (a product with running column sums and sums of squares, twice, then a normalisation), the reference runs it
  as plain array operations.

  Over the extended reals the two programs differ in one place only: the kernel's column variance is the mean of the
  squares minus the squared mean, clamped at zero, the reference's is the mean of the squared deviations. On columns of
  real numbers the two are equal (Proof/SpecAlgebra.lean), and the columns are real because the precondition makes every
  float input real (Proof/PreFinite.lean) and gathers, scatter-adds, sums and products of reals are real
  (Proof/PreambleFinite.lean, Proof/SpecAlgebra.lean). Everything else is re-association of sums: a column sum taken
  5000 rows at a time over twenty grid points is the column sum (Proof/Tiles.lean, Proof/Region0.lean,
  Proof/Region1.lean), a product against a transposed matrix is the product against its rows (Proof/ChainValue.lean).
  The residual array itself is never opened: both programs compute it by the same operations (Proof/PreambleEq.lean).
-/
import proofs.«143247_j50869592655513_1_alg».proof.Defs
import proofs.«143247_j50869592655513_1_alg».proof.Proof.Gen.Kernel
import proofs.«143247_j50869592655513_1_alg».proof.Proof.Gen.Kernel.Frame
import proofs.«143247_j50869592655513_1_alg».proof.Proof.Gen.KernelIdeal
import proofs.«143247_j50869592655513_1_alg».proof.Proof.Gen.KernelIdeal.Frame
import proofs.«143247_j50869592655513_1_alg».proof.Proof.Gen.ReferenceIdeal
import proofs.«143247_j50869592655513_1_alg».proof.Proof.Gen.Pre_finite_inputs
import proofs.«143247_j50869592655513_1_alg».proof.Proof.KRun
import proofs.«143247_j50869592655513_1_alg».proof.Proof.ChainValue
import proofs.«143247_j50869592655513_1_alg».proof.Proof.PreambleEq
import proofs.«143247_j50869592655513_1_alg».proof.Proof.PreambleFinite
import proofs.«143247_j50869592655513_1_alg».proof.Proof.PreFinite
import proofs.«143247_j50869592655513_1_alg».proof.Proof.RefRun
import proofs.«143247_j50869592655513_1_alg».proof.Proof.RefRead
import proofs.«143247_j50869592655513_1_alg».proof.Proof.RefValue
import proofs.«143247_j50869592655513_1_alg».proof.Proof.SpecAlgebra
import Idealize.ShloMosaic.Adequacy
import Idealize.ShloMosaic.Init

noncomputable section

namespace Cert.Proof

open Idealize.ShloMosaic Idealize.ShloMosaic.TcCoe Idealize.SL.Sem Idealize.ShloMosaic.ValueIdx

/-- A rank-1 array of reals, read as a function of its coordinate, is a function into the reals. -/
theorem finite_vec {n : Nat} (x : Layer.Arr1 n) (h : Layer.Finite x) : Layer.Finite (fun j : Fin n => x (ix1 j)) :=
  fun j => h (ix1 j)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network of the residual array and the parameters; the kernel's with the one-pass
    variance, the reference's with the two-pass variance; on the real arrays the precondition gives they agree. -/
theorem algebraic : Cert.algebraic_KernelIdeal_ReferenceIdeal := by
  intro m ρ m' ρ' hpre hagree
  refine ⟨fun c => Cert.KernelIdeal.Gen.W6 m ρ c (Proc.devRef .tc Cert.KernelIdeal.main_v56), Cert.KernelIdeal.Gen.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11⟩ := hagree c
  obtain ⟨f0, f1, f2, f3, f4, f5, f6, f7, f8, f9⟩ := Cert.Pre_finite_inputs.Reals.of_pre _ _ _ _ _ _ _ _ _ _ _ _ (hpre c)
  rw [Cert.ReferenceIdeal.ReadP.val_main_v85_eq, e0, e1, e2, e3, e4, e5, e6, e7, e8, e9, e10, e11]
  refine (Cert.ReferenceIdeal.RefValue.result_eq _ _ _ _ _ _ _ _ _ _ _ _).trans ?_
  refine Eq.trans ?_ (Cert.KernelIdeal.Chain.result_eq m ρ c).symm
  rw [show Cert.KernelIdeal.Chain.h0 m ρ c = _ from Cert.KernelIdeal.Chain.residual_eq (F := Ideal) m ρ c]
  exact (Layer.layer_eq _ _ _ _ _ _ _
    (Cert.ReferenceIdeal.RefValue.finite_residual _ _ _ _ _ _ f0 f1 f2 f3) f4 (finite_vec _ f5) (finite_vec _ f6) f7).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
